-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x256 : Shape := ⟨4, ![8, 128, 128, 256]⟩
abbrev S256x128 : Shape := ⟨2, ![256, 128]⟩
abbrev S128x128 : Shape := ⟨2, ![128, 128]⟩
abbrev S128x256 : Shape := ⟨2, ![128, 256]⟩
abbrev S128 : Shape := ⟨1, ![128]⟩
abbrev S_ : Shape := ⟨0, ![]⟩

class Facts : Prop where
  bcast_S_S8x128x128x256 : S_.BroadcastsInDim S8x128x128x256 (![] : Fin 0 → Fin S8x128x128x256.rank)
  reducesTo_S8x128x128x256_S_d0_1_2_3 : S8x128x128x256.ReducesTo [0, 1, 2, 3] S_
  h_S_ : 0 < S_.numel
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_arg21 : FVec F S128 .f32) (main_arg22 : FVec F S128 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg21
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  main_v113

def fn_part5 {F : FTy → Type} [FloatOps F] (main_arg18 : FVec F S128 .f32) (main_arg19 : FVec F S128 .f32) (main_arg20 : FVec F S128 .f32) (main_arg21 : FVec F S128 .f32) (main_arg22 : FVec F S128 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg19
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S128x128 .f32) (main_arg5 : FVec F S256x128 .f32) (main_arg6 : FVec F S128x256 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128x256 .f32 := Host.absf main_arg6
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S8x128x128x256 .f32) (main_arg1 : FVec F S256x128 .f32) (main_arg2 : FVec F S128x128 .f32) (main_arg3 : FVec F S256x128 .f32) (main_arg4 : FVec F S128x128 .f32) (main_arg5 : FVec F S256x128 .f32) (main_arg6 : FVec F S128x256 .f32) (main_arg7 : FVec F S128 .f32) (main_arg8 : FVec F S128 .f32) (main_arg9 : FVec F S128 .f32) (main_arg10 : FVec F S128 .f32) (main_arg11 : FVec F S128 .f32) (main_arg12 : FVec F S128 .f32) (main_arg13 : FVec F S128 .f32) (main_arg14 : FVec F S128 .f32) (main_arg15 : FVec F S128 .f32) (main_arg16 : FVec F S128 .f32) (main_arg17 : FVec F S128 .f32) (main_arg18 : FVec F S128 .f32) (main_arg19 : FVec F S128 .f32) (main_arg20 : FVec F S128 .f32) (main_arg21 : FVec F S128 .f32) (main_arg22 : FVec F S128 .f32) : IVec S_ 1 :=
  let main_v0 : FVec F S8x128x128x256 .f32 := Host.absf main_arg0
  let main_cst : FVec F S_ .f32 := constant S_ .f32 0x7F800000#32
  let main_v1 : FVec F S8x128x128x256 .f32 := broadcastInDim S8x128x128x256 ![] bcast_S_S8x128x128x256 main_cst
  let main_v2 : IVec S8x128x128x256 1 := cmpf .olt main_v0 main_v1
  let main_c : IVec S_ 1 := constantI S_ 1 1#1
  let main_v3 : IVec S_ 1 := (fun x v => Host.reduce IntOp.andi x v reducesTo_S8x128x128x256_S_d0_1_2_3 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S8x128x128x256 : Shape := ⟨4, ![8, 128, 128, 256]⟩
abbrev S256x128 : Shape := ⟨2, ![256, 128]⟩
abbrev S128x128 : Shape := ⟨2, ![128, 128]⟩
abbrev S128x256 : Shape := ⟨2, ![128, 256]⟩
abbrev S128 : Shape := ⟨1, ![128]⟩
abbrev S1x16x128x256 : Shape := ⟨4, ![1, 16, 128, 256]⟩
abbrev S16x128x256 : Shape := ⟨3, ![16, 128, 256]⟩
abbrev S2048x256 : Shape := ⟨2, ![2048, 256]⟩
abbrev S2048x128 : Shape := ⟨2, ![2048, 128]⟩
abbrev S1x128 : Shape := ⟨2, ![1, 128]⟩
abbrev S16x128x128 : Shape := ⟨3, ![16, 128, 128]⟩
abbrev S16x128 : Shape := ⟨2, ![16, 128]⟩
abbrev S16x128x1 : Shape := ⟨3, ![16, 128, 1]⟩

abbrev nBuf : Space → Nat
  | .hbm => 24
  | .vmem => 26
  | .smem => 0
  | _ => 0

abbrev bufTy : (tb : Table) → Fin (tcTables nBuf tb) → BufTy
  | .hbm, ⟨0, _⟩ => ⟨S8x128x128x256, .f32⟩
  | .hbm, ⟨1, _⟩ => ⟨S256x128, .f32⟩
  | .hbm, ⟨2, _⟩ => ⟨S128x128, .f32⟩
  | .hbm, ⟨3, _⟩ => ⟨S256x128, .f32⟩
  | .hbm, ⟨4, _⟩ => ⟨S128x128, .f32⟩
  | .hbm, ⟨5, _⟩ => ⟨S256x128, .f32⟩
  | .hbm, ⟨6, _⟩ => ⟨S128x256, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S8x128x128x256, .f32⟩
  | .local _ .vmem, ⟨0, _⟩ => ⟨S1x16x128x256, .f32⟩
  | .local _ .vmem, ⟨1, _⟩ => ⟨S1x16x128x256, .f32⟩
  | .local _ .vmem, ⟨2, _⟩ => ⟨S256x128, .f32⟩
  | .local _ .vmem, ⟨3, _⟩ => ⟨S128x128, .f32⟩
  | .local _ .vmem, ⟨4, _⟩ => ⟨S256x128, .f32⟩
  | .local _ .vmem, ⟨5, _⟩ => ⟨S128x128, .f32⟩
  | .local _ .vmem, ⟨6, _⟩ => ⟨S256x128, .f32⟩
  | .local _ .vmem, ⟨7, _⟩ => ⟨S128x256, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S1x16x128x256, .f32⟩
  | .local _ .vmem, ⟨25, _⟩ => ⟨S1x16x128x256, .f32⟩
  | _, _ => ⟨S8x128x128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg23_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem23_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_20 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_22 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 2 → Memref sig .tc .vmem S1x16x128x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

class Facts₀ : Prop where
  inb_S1x16x128x256_S1x16x128x256_0_0_0_0 : ∀ a, (![0, 0, 0, 0] : Fin 4 → Nat) a + S1x16x128x256.size a ≤ S1x16x128x256.size a
  h_S1x16x128x256 : 0 < S1x16x128x256.numel
  shapeCasts_S1x16x128x256_S16x128x256 : S1x16x128x256.ShapeCasts S16x128x256
  shapeCasts_S16x128x256_S2048x256 : S16x128x256.ShapeCasts S2048x256
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S128_S1x128 : S128.ShapeCasts S1x128
  broadcasts_S1x128_S2048x128 : S1x128.Broadcasts S2048x128
  shapeCasts_S2048x128_S16x128x128 : S2048x128.ShapeCasts S16x128x128
  reduces_S16x128x128_S16x128 : S16x128x128.Reduces [2] S16x128
  shapeCasts_S16x128_S16x128x1 : S16x128.ShapeCasts S16x128x1
  broadcasts_S16x128x1_S16x128x128 : S16x128x1.Broadcasts S16x128x128
  shapeCasts_S16x128x128_S2048x128 : S16x128x128.ShapeCasts S2048x128
  inb_S128x256_S128x256_0_0 : ∀ a, (![0, 0] : Fin 2 → Nat) a + S128x256.size a ≤ S128x256.size a
  h_S128x256 : 0 < S128x256.numel
  shapeCasts_S2048x256_S16x128x256 : S2048x256.ShapeCasts S16x128x256
  shapeCasts_S16x128x256_S1x16x128x256 : S16x128x256.ShapeCasts S1x16x128x256
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  dot_S16x128x128_S16x128x128_S16x128x128_2_2_1_1_0_0_wf : DotDims.WF S16x128x128 S16x128x128 S16x128x128 [2] [2] [1] [1] [0] [0]
  dot_S16x128x128_S16x128x128_S16x128x128_2_1_1_2_0_0_wf : DotDims.WF S16x128x128 S16x128x128 S16x128x128 [2] [1] [1] [2] [0] [0]
  dot_S2048x128_S128x256_S2048x256_1_0_0_1_n_n_wf : DotDims.WF S2048x128 S128x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x256.size a ≤ S8x128x128x256.size a
  hwx0_0 : ∀ i : grid0.Coords, EltTy.bits .f32 = 32 ∨ (Rect.block (s := S8x128x128x256) S1x16x128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .f32 = 32 ∨ (Rect.block (s := S128x256) S128x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128.size a ≤ S128.size a
  hwx0_12 : ∀ i : grid0.Coords, EltTy.bits .f32 = 32 ∨ (Rect.block (s := S128) S128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128.size a ≤ S128.size a
  hwx0_14 : ∀ i : grid0.Coords, EltTy.bits .f32 = 32 ∨ (Rect.block (s := S128) S128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128.size a ≤ S128.size a
  hwx0_15 : ∀ i : grid0.Coords, EltTy.bits .f32 = 32 ∨ (Rect.block (s := S128) S128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128.size a ≤ S128.size a
  hwx0_17 : ∀ i : grid0.Coords, EltTy.bits .f32 = 32 ∨ (Rect.block (s := S128) S128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S128.size a ≤ S128.size a
  hwx0_18 : ∀ i : grid0.Coords, EltTy.bits .f32 = 32 ∨ (Rect.block (s := S128) S128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128.size a ≤ S128.size a
  hwx0_19 : ∀ i : grid0.Coords, EltTy.bits .f32 = 32 ∨ (Rect.block (s := S128) S128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S128.size a ≤ S128.size a
  hwx0_20 : ∀ i : grid0.Coords, EltTy.bits .f32 = 32 ∨ (Rect.block (s := S128) S128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128.size a ≤ S128.size a
  hwx0_21 : ∀ i : grid0.Coords, EltTy.bits .f32 = 32 ∨ (Rect.block (s := S128) S128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S128.size a ≤ S128.size a
  hwx0_22 : ∀ i : grid0.Coords, EltTy.bits .f32 = 32 ∨ (Rect.block (s := S128) S128.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1x16x128x256.size a ≤ S8x128x128x256.size a
  hwx0_23 : ∀ i : grid0.Coords, EltTy.bits .f32 = 32 ∨ (Rect.block (s := S8x128x128x256) S1x16x128x256.size (cc0_transform_23 i) (hinb0_23 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S16x128x128_S16x128x128_S16x128x128_2_2_1_1_0_0 : DotDims S16x128x128 S16x128x128 S16x128x128 where
  lhsContracting := [2]
  rhsContracting := [2]
  lhsNonContracting := [1]
  rhsNonContracting := [1]
  lhsBatch := [0]
  rhsBatch := [0]
  wf := dot_S16x128x128_S16x128x128_S16x128x128_2_2_1_1_0_0_wf
def dot_S16x128x128_S16x128x128_S16x128x128_2_1_1_2_0_0 : DotDims S16x128x128 S16x128x128 S16x128x128 where
  lhsContracting := [2]
  rhsContracting := [1]
  lhsNonContracting := [1]
  rhsNonContracting := [2]
  lhsBatch := [0]
  rhsBatch := [0]
  wf := dot_S16x128x128_S16x128x128_S16x128x128_2_1_1_2_0_0_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf

abbrev win0_0 : Pipeline.Window sig grid0 :=
  Pipeline.Window.ofSpec (Memref.whole main_arg0) S1x16x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v0) S1x16x128x256.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S8x128x128x256 : Shape := ⟨4, ![8, 128, 128, 256]⟩
abbrev S256x128 : Shape := ⟨2, ![256, 128]⟩
abbrev S128x128 : Shape := ⟨2, ![128, 128]⟩
abbrev S128x256 : Shape := ⟨2, ![128, 256]⟩
abbrev S128 : Shape := ⟨1, ![128]⟩
abbrev S8x128x128x128 : Shape := ⟨4, ![8, 128, 128, 128]⟩
abbrev S1x1x1x128 : Shape := ⟨4, ![1, 1, 1, 128]⟩
abbrev S_ : Shape := ⟨0, ![]⟩
abbrev S8x128x128 : Shape := ⟨3, ![8, 128, 128]⟩
abbrev S8x128x128x1 : Shape := ⟨4, ![8, 128, 128, 1]⟩

abbrev nBuf : Space → Nat
  | .hbm => 124
  | .vmem => 0
  | .smem => 0
  | _ => 0

abbrev bufTy : (tb : Table) → Fin (tcTables nBuf tb) → BufTy
  | .hbm, ⟨0, _⟩ => ⟨S8x128x128x256, .f32⟩
  | .hbm, ⟨1, _⟩ => ⟨S256x128, .f32⟩
  | .hbm, ⟨2, _⟩ => ⟨S128x128, .f32⟩
  | .hbm, ⟨3, _⟩ => ⟨S256x128, .f32⟩
  | .hbm, ⟨4, _⟩ => ⟨S128x128, .f32⟩
  | .hbm, ⟨5, _⟩ => ⟨S256x128, .f32⟩
  | .hbm, ⟨6, _⟩ => ⟨S128x256, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S8x128x128x128, .f32⟩
  | .hbm, ⟨24, _⟩ => ⟨S1x1x1x128, .f32⟩
  | .hbm, ⟨25, _⟩ => ⟨S8x128x128x128, .f32⟩
  | .hbm, ⟨26, _⟩ => ⟨S8x128x128x128, .f32⟩
  | .hbm, ⟨27, _⟩ => ⟨S1x1x1x128, .f32⟩
  | .hbm, ⟨28, _⟩ => ⟨S8x128x128x128, .f32⟩
  | .hbm, ⟨29, _⟩ => ⟨S8x128x128x128, .f32⟩
  | .hbm, ⟨30, _⟩ => ⟨S_, .f32⟩
  | .hbm, ⟨31, _⟩ => ⟨S128, .f32⟩
  | .hbm, ⟨32, _⟩ => ⟨S128, .f32⟩
  | .hbm, ⟨33, _⟩ => ⟨S128, .f32⟩
  | .hbm, ⟨34, _⟩ => ⟨S1x1x1x128, .f32⟩
  | .hbm, ⟨35, _⟩ => ⟨S8x128x128x128, .f32⟩
  | .hbm, ⟨36, _⟩ => ⟨S8x128x128x128, .f32⟩
  | .hbm, ⟨37, _⟩ => ⟨S1x1x1x128, .f32⟩
  | .hbm, ⟨38, _⟩ => ⟨S8x128x128x128, .f32⟩
  | .hbm, ⟨39, _⟩ => ⟨S8x128x128x128, .f32⟩
  | .hbm, ⟨40, _⟩ => ⟨S_, .f32⟩
  | .hbm, ⟨41, _⟩ => ⟨S8x128x128x128, .f32⟩
  | .hbm, ⟨42, _⟩ => ⟨S8x128x128x128, .f32⟩
  | .hbm, ⟨43, _⟩ => ⟨S8x128x128x128, .f32⟩
  | .hbm, ⟨44, _⟩ => ⟨S1x1x1x128, .f32⟩
  | .hbm, ⟨45, _⟩ => ⟨S8x128x128x128, .f32⟩
  | .hbm, ⟨46, _⟩ => ⟨S8x128x128x128, .f32⟩
  | .hbm, ⟨47, _⟩ => ⟨S1x1x1x128, .f32⟩
  | .hbm, ⟨48, _⟩ => ⟨S8x128x128x128, .f32⟩
  | .hbm, ⟨49, _⟩ => ⟨S8x128x128x128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S1x1x1x128, .f32⟩
  | .hbm, ⟨55, _⟩ => ⟨S8x128x128x128, .f32⟩
  | .hbm, ⟨56, _⟩ => ⟨S8x128x128x128, .f32⟩
  | .hbm, ⟨57, _⟩ => ⟨S1x1x1x128, .f32⟩
  | .hbm, ⟨58, _⟩ => ⟨S8x128x128x128, .f32⟩
  | .hbm, ⟨59, _⟩ => ⟨S8x128x128x128, .f32⟩
  | .hbm, ⟨60, _⟩ => ⟨S_, .f32⟩
  | .hbm, ⟨61, _⟩ => ⟨S8x128x128x128, .f32⟩
  | .hbm, ⟨62, _⟩ => ⟨S8x128x128x128, .f32⟩
  | .hbm, ⟨63, _⟩ => ⟨S8x128x128x128, .f32⟩
  | .hbm, ⟨64, _⟩ => ⟨S1x1x1x128, .f32⟩
  | .hbm, ⟨65, _⟩ => ⟨S8x128x128x128, .f32⟩
  | .hbm, ⟨66, _⟩ => ⟨S8x128x128x128, .f32⟩
  | .hbm, ⟨67, _⟩ => ⟨S1x1x1x128, .f32⟩
  | .hbm, ⟨68, _⟩ => ⟨S8x128x128x128, .f32⟩
  | .hbm, ⟨69, _⟩ => ⟨S8x128x128x128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S128, .f32⟩
  | .hbm, ⟨74, _⟩ => ⟨S1x1x1x128, .f32⟩
  | .hbm, ⟨75, _⟩ => ⟨S8x128x128x128, .f32⟩
  | .hbm, ⟨76, _⟩ => ⟨S8x128x128x128, .f32⟩
  | .hbm, ⟨77, _⟩ => ⟨S1x1x1x128, .f32⟩
  | .hbm, ⟨78, _⟩ => ⟨S8x128x128x128, .f32⟩
  | .hbm, ⟨79, _⟩ => ⟨S8x128x128x128, .f32⟩
  | .hbm, ⟨80, _⟩ => ⟨S_, .f32⟩
  | .hbm, ⟨81, _⟩ => ⟨S8x128x128x128, .f32⟩
  | .hbm, ⟨82, _⟩ => ⟨S8x128x128x128, .f32⟩
  | .hbm, ⟨83, _⟩ => ⟨S8x128x128x128, .f32⟩
  | .hbm, ⟨84, _⟩ => ⟨S1x1x1x128, .f32⟩
  | .hbm, ⟨85, _⟩ => ⟨S8x128x128x128, .f32⟩
  | .hbm, ⟨86, _⟩ => ⟨S8x128x128x128, .f32⟩
  | .hbm, ⟨87, _⟩ => ⟨S1x1x1x128, .f32⟩
  | .hbm, ⟨88, _⟩ => ⟨S8x128x128x128, .f32⟩
  | .hbm, ⟨89, _⟩ => ⟨S8x128x128x128, .f32⟩
  | .hbm, ⟨90, _⟩ => ⟨S_, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S1x1x1x128, .f32⟩
  | .hbm, ⟨95, _⟩ => ⟨S8x128x128x128, .f32⟩
  | .hbm, ⟨96, _⟩ => ⟨S8x128x128x128, .f32⟩
  | .hbm, ⟨97, _⟩ => ⟨S1x1x1x128, .f32⟩
  | .hbm, ⟨98, _⟩ => ⟨S8x128x128x128, .f32⟩
  | .hbm, ⟨99, _⟩ => ⟨S8x128x128x128, .f32⟩
  | .hbm, ⟨100, _⟩ => ⟨S_, .f32⟩
  | .hbm, ⟨101, _⟩ => ⟨S8x128x128x128, .f32⟩
  | .hbm, ⟨102, _⟩ => ⟨S8x128x128x128, .f32⟩
  | .hbm, ⟨103, _⟩ => ⟨S8x128x128x128, .f32⟩
  | .hbm, ⟨104, _⟩ => ⟨S8x128x128x128, .f32⟩
  | .hbm, ⟨105, _⟩ => ⟨S_, .f32⟩
  | .hbm, ⟨106, _⟩ => ⟨S8x128x128x128, .f32⟩
  | .hbm, ⟨107, _⟩ => ⟨S8x128x128x128, .f32⟩
  | .hbm, ⟨108, _⟩ => ⟨S_, .f32⟩
  | .hbm, ⟨109, _⟩ => ⟨S8x128x128, .f32⟩
  | .hbm, ⟨110, _⟩ => ⟨S_, .f32⟩
  | .hbm, ⟨111, _⟩ => ⟨S8x128x128, .f32⟩
  | .hbm, ⟨112, _⟩ => ⟨S8x128x128, .f32⟩
  | .hbm, ⟨113, _⟩ => ⟨S8x128x128x1, .f32⟩
  | .hbm, ⟨114, _⟩ => ⟨S8x128x128x128, .f32⟩
  | .hbm, ⟨115, _⟩ => ⟨S8x128x128x128, .f32⟩
  | .hbm, ⟨116, _⟩ => ⟨S8x128x128x128, .f32⟩
  | .hbm, ⟨117, _⟩ => ⟨S_, .f32⟩
  | .hbm, ⟨118, _⟩ => ⟨S8x128x128, .f32⟩
  | .hbm, ⟨119, _⟩ => ⟨S8x128x128x1, .f32⟩
  | .hbm, ⟨120, _⟩ => ⟨S8x128x128x128, .f32⟩
  | .hbm, ⟨121, _⟩ => ⟨S8x128x128x128, .f32⟩
  | .hbm, ⟨122, _⟩ => ⟨S8x128x128x128, .f32⟩
  | .hbm, ⟨123, _⟩ => ⟨S8x128x128x256, .f32⟩
  | _, _ => ⟨S8x128x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_call0_cst : Ref sig .tc := ⟨.hbm, 40, rfl⟩
abbrev main_call0_v0 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_cst_0 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call1_cst : Ref sig .tc := ⟨.hbm, 60, rfl⟩
abbrev main_call1_v0 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_1 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call2_cst : Ref sig .tc := ⟨.hbm, 80, rfl⟩
abbrev main_call2_v0 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_2 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call3_cst : Ref sig .tc := ⟨.hbm, 100, rfl⟩
abbrev main_call3_v0 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_cst_3 : Ref sig .tc := ⟨.hbm, 105, rfl⟩
abbrev main_v70 : Ref sig .tc := ⟨.hbm, 106, rfl⟩
abbrev main_v71 : Ref sig .tc := ⟨.hbm, 107, rfl⟩
abbrev main_cst_4 : Ref sig .tc := ⟨.hbm, 108, rfl⟩
abbrev main_v72 : Ref sig .tc := ⟨.hbm, 109, rfl⟩
abbrev main_cst_5 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_6 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S8x128x128x128_0_1_2_3 : S1x1x1x128.BroadcastsInDim S8x128x128x128 (![0, 1, 2, 3] : Fin 4 → Fin S8x128x128x128.rank)
  bcast_S_S128 : S_.BroadcastsInDim S128 (![] : Fin 0 → Fin S128.rank)
  bcast_S_S8x128x128x128 : S_.BroadcastsInDim S8x128x128x128 (![] : Fin 0 → Fin S8x128x128x128.rank)
  reducesTo_S8x128x128x128_S8x128x128_d3 : S8x128x128x128.ReducesTo [3] S8x128x128
  h_S_ : 0 < S_.numel
  bcast_S_S8x128x128 : S_.BroadcastsInDim S8x128x128 (![] : Fin 0 → Fin S8x128x128.rank)
  bcast_S8x128x128_S8x128x128x1_0_1_2 : S8x128x128.BroadcastsInDim S8x128x128x1 (![0, 1, 2] : Fin 3 → Fin S8x128x128x1.rank)
  bcast_S8x128x128x1_S8x128x128x128_0_1_2_3 : S8x128x128x1.BroadcastsInDim S8x128x128x128 (![0, 1, 2, 3] : Fin 4 → Fin S8x128x128x128.rank)
  dot_S8x128x128x256_S256x128_S8x128x128x128_3_0_012_1_n_n_wf : DotDims.WF S8x128x128x256 S256x128 S8x128x128x128 [3] [0] [0, 1, 2] [1] [] []
  dot_S8x128x128x128_S128x128_S8x128x128x128_3_0_012_1_n_n_wf : DotDims.WF S8x128x128x128 S128x128 S8x128x128x128 [3] [0] [0, 1, 2] [1] [] []
  dot_S8x128x128x128_S8x128x128x128_S8x128x128x128_3_3_2_2_01_01_wf : DotDims.WF S8x128x128x128 S8x128x128x128 S8x128x128x128 [3] [3] [2] [2] [0, 1] [0, 1]
  dot_S8x128x128x128_S8x128x128x128_S8x128x128x128_3_2_2_3_01_01_wf : DotDims.WF S8x128x128x128 S8x128x128x128 S8x128x128x128 [3] [2] [2] [3] [0, 1] [0, 1]
  dot_S8x128x128x128_S128x256_S8x128x128x256_3_0_012_1_n_n_wf : DotDims.WF S8x128x128x128 S128x256 S8x128x128x256 [3] [0] [0, 1, 2] [1] [] []

variable [Facts₀]

def dot_S8x128x128x256_S256x128_S8x128x128x128_3_0_012_1_n_n : DotDims S8x128x128x256 S256x128 S8x128x128x128 where
  lhsContracting := [3]
  rhsContracting := [0]
  lhsNonContracting := [0, 1, 2]
  rhsNonContracting := [1]
  lhsBatch := []
  rhsBatch := []
  wf := dot_S8x128x128x256_S256x128_S8x128x128x128_3_0_012_1_n_n_wf
def dot_S8x128x128x128_S128x128_S8x128x128x128_3_0_012_1_n_n : DotDims S8x128x128x128 S128x128 S8x128x128x128 where
  lhsContracting := [3]
  rhsContracting := [0]
  lhsNonContracting := [0, 1, 2]
  rhsNonContracting := [1]
  lhsBatch := []
  rhsBatch := []
  wf := dot_S8x128x128x128_S128x128_S8x128x128x128_3_0_012_1_n_n_wf
def dot_S8x128x128x128_S8x128x128x128_S8x128x128x128_3_3_2_2_01_01 : DotDims S8x128x128x128 S8x128x128x128 S8x128x128x128 where
  lhsContracting := [3]
  rhsContracting := [3]
  lhsNonContracting := [2]
  rhsNonContracting := [2]
  lhsBatch := [0, 1]
  rhsBatch := [0, 1]
  wf := dot_S8x128x128x128_S8x128x128x128_S8x128x128x128_3_3_2_2_01_01_wf
def dot_S8x128x128x128_S8x128x128x128_S8x128x128x128_3_2_2_3_01_01 : DotDims S8x128x128x128 S8x128x128x128 S8x128x128x128 where
  lhsContracting := [3]
  rhsContracting := [2]
  lhsNonContracting := [2]
  rhsNonContracting := [3]
  lhsBatch := [0, 1]
  rhsBatch := [0, 1]
  wf := dot_S8x128x128x128_S8x128x128x128_S8x128x128x128_3_2_2_3_01_01_wf
def dot_S8x128x128x128_S128x256_S8x128x128x256_3_0_012_1_n_n : DotDims S8x128x128x128 S128x256 S8x128x128x256 where
  lhsContracting := [3]
  rhsContracting := [0]
  lhsNonContracting := [0, 1, 2]
  rhsNonContracting := [1]
  lhsBatch := []
  rhsBatch := []
  wf := dot_S8x128x128x128_S128x256_S8x128x128x256_3_0_012_1_n_n_wf

class Facts : Prop extends Facts₀ where

variable [Facts]
-- ==== Proof.Spec.lean ====
/-
  Self-attention along the width axis of one image row, as plain functions on the extended reals.

  One row is a slab of 128 pixels with 256 channels each. Every pixel is sent through two small two-layer
  networks (a 1×1 convolution, an inference batch norm, a ReLU, twice) giving its 128 "theta" and 128 "phi" features,
  and through one more 1×1 convolution giving its 128 "gamma" features. The score of pixel `w` against pixel `v` is the
  scaled inner product of theta at `w` with phi at `v`; a softmax over `v` turns the scores of `w` into weights; the
  weighted sum of the gamma features is the attended feature vector of `w`; a last 1×1 convolution takes it back to 256
  channels. Nothing here mixes different rows, so the whole array function is this slab function row by row.

  All sums are sums over `Fin n` in the extended reals, where addition is commutative and associative: neither the
  order nor the tiling of a sum matters, and no law that needs finiteness (distributivity, cancellation) is used.
-/
import Idealize.ShloMosaic.PureOps.Ideal
import Idealize.ShloMosaic.PureOps.Ideal.Laws
import Idealize.ShloMosaic.Lib.ValueIdx

noncomputable section

open scoped BigOperators

namespace Cert.Attn

open Idealize.ShloMosaic

/-- The batch norm's epsilon, the f32 nearest to 1e-3. -/
abbrev eps : EReal := Ideal.ofBits .f32 0x3A83126F#32
/-- The scale of the scores, the f32 nearest to √(2/256). -/
abbrev scale : EReal := Ideal.ofBits .f32 0x3DB504F3#32
/-- Minus infinity, the starting value of a running maximum. -/
abbrev ninf : EReal := Ideal.ofBits .f32 0xFF800000#32
/-- The zero word. -/
abbrev zero : EReal := Ideal.ofBits .f32 0x00000000#32

/-- A 1×1 convolution at one pixel: channel `j` of the result is `∑ c, x c · W c j`. -/
def conv {K N : Nat} (x : Fin K → EReal) (W : Fin K → Fin N → EReal) (j : Fin N) : EReal :=
  ∑ c : Fin K, x c * W c j

/-- Inference batch norm of one channel value: `g · (y − m) · (v + ε)^(−1/2) + b`. -/
def bn (g b m v y : EReal) : EReal := g * (y - m) * Ideal.rsqrt (v + eps) + b

/-- ReLU. -/
def relu (y : EReal) : EReal := max y zero

/-- The learnt arrays: six weight matrices and four batch norms (scale, shift, mean, variance each). -/
structure Params where
  tw1 : Fin 256 → Fin 128 → EReal
  tw2 : Fin 128 → Fin 128 → EReal
  pw1 : Fin 256 → Fin 128 → EReal
  pw2 : Fin 128 → Fin 128 → EReal
  gw : Fin 256 → Fin 128 → EReal
  rw : Fin 128 → Fin 256 → EReal
  t1g : Fin 128 → EReal
  t1b : Fin 128 → EReal
  t1m : Fin 128 → EReal
  t1v : Fin 128 → EReal
  t2g : Fin 128 → EReal
  t2b : Fin 128 → EReal
  t2m : Fin 128 → EReal
  t2v : Fin 128 → EReal
  p1g : Fin 128 → EReal
  p1b : Fin 128 → EReal
  p1m : Fin 128 → EReal
  p1v : Fin 128 → EReal
  p2g : Fin 128 → EReal
  p2b : Fin 128 → EReal
  p2m : Fin 128 → EReal
  p2v : Fin 128 → EReal

/-- One layer at one pixel: convolution, batch norm, ReLU. -/
def layer {K : Nat} (W : Fin K → Fin 128 → EReal) (g b m v : Fin 128 → EReal) (x : Fin K → EReal) (j : Fin 128) : EReal :=
  relu (bn (g j) (b j) (m j) (v j) (conv x W j))

/-- The theta features of a pixel. -/
def theta (P : Params) (x : Fin 256 → EReal) : Fin 128 → EReal :=
  layer P.tw2 P.t2g P.t2b P.t2m P.t2v (layer P.tw1 P.t1g P.t1b P.t1m P.t1v x)

/-- The phi features of a pixel. -/
def phi (P : Params) (x : Fin 256 → EReal) : Fin 128 → EReal :=
  layer P.pw2 P.p2g P.p2b P.p2m P.p2v (layer P.pw1 P.p1g P.p1b P.p1m P.p1v x)

/-- The gamma features of a pixel. -/
def gamma (P : Params) (x : Fin 256 → EReal) : Fin 128 → EReal := conv x P.gw

/-- The scaled inner product of two feature vectors. -/
def score (a b : Fin 128 → EReal) : EReal := scale * ∑ c : Fin 128, a c * b c

/-- The running maximum of a row of scores, started at minus infinity (and once more capped below by it). -/
def rowmax (s : Fin 128 → EReal) : EReal := max ninf ((Finset.univ : Finset (Fin 128)).fold max ninf s)

/-- The softmax weights of a row of scores. -/
def softmax (s : Fin 128 → EReal) (v : Fin 128) : EReal :=
  Ideal.div (Ideal.exp (s v - rowmax s)) (∑ u : Fin 128, Ideal.exp (s u - rowmax s))

/-- The attended feature vector: the weighted sum of the gamma features. -/
def attend (p : Fin 128 → EReal) (G : Fin 128 → Fin 128 → EReal) (c : Fin 128) : EReal := ∑ v : Fin 128, p v * G v c

/-- The attention core of a row from its three feature maps (pixel, feature). -/
def core (TH PH GA : Fin 128 → Fin 128 → EReal) (w : Fin 128) : Fin 128 → EReal :=
  attend (softmax fun v => score (TH w) (PH v)) GA

/-- The whole row: pixel `w`, output channel `f`, from the row's pixels `xs`. -/
def slabOut (P : Params) (xs : Fin 128 → Fin 256 → EReal) (w : Fin 128) (f : Fin 256) : EReal :=
  conv (core (fun w' => theta P (xs w')) (fun v => phi P (xs v)) (fun v => gamma P (xs v)) w) P.rw f

/-! ## The learnt arrays read off the programs' buffers -/

open Idealize.ShloMosaic.ValueIdx

/-- A rank-2 buffer as a function of its two coordinates. -/
def mat {a b : Nat} (x : (⟨2, ![a, b]⟩ : Shape).Idx → EReal) : Fin a → Fin b → EReal := fun i j => x (ix2 i j)

/-- A rank-1 buffer as a function of its coordinate. -/
def vec {a : Nat} (x : (⟨1, ![a]⟩ : Shape).Idx → EReal) : Fin a → EReal := fun i => x (ix1 i)

/-- The learnt arrays from the twenty-two buffers, in the order both programs take them: the six weight matrices, then
    scale, shift, mean and variance of theta's two batch norms and of phi's two. -/
def params (tw1 : (⟨2, ![256, 128]⟩ : Shape).Idx → EReal) (tw2 : (⟨2, ![128, 128]⟩ : Shape).Idx → EReal)
    (pw1 : (⟨2, ![256, 128]⟩ : Shape).Idx → EReal) (pw2 : (⟨2, ![128, 128]⟩ : Shape).Idx → EReal)
    (gw : (⟨2, ![256, 128]⟩ : Shape).Idx → EReal) (rw : (⟨2, ![128, 256]⟩ : Shape).Idx → EReal)
    (t1g t1b t1m t1v t2g t2b t2m t2v p1g p1b p1m p1v p2g p2b p2m p2v : (⟨1, ![128]⟩ : Shape).Idx → EReal) : Params where
  tw1 := mat tw1
  tw2 := mat tw2
  pw1 := mat pw1
  pw2 := mat pw2
  gw := mat gw
  rw := mat rw
  t1g := vec t1g
  t1b := vec t1b
  t1m := vec t1m
  t1v := vec t1v
  t2g := vec t2g
  t2b := vec t2b
  t2m := vec t2m
  t2v := vec t2v
  p1g := vec p1g
  p1b := vec p1b
  p1m := vec p1m
  p1v := vec p1v
  p2g := vec p2g
  p2b := vec p2b
  p2m := vec p2m
  p2v := vec p2v

end Cert.Attn

end
-- ==== Proof.LibDot.lean ====
/-
  A plain matrix product read at an entry.

  For dimension numbers that contract axis 1 of an `M × K` left operand with axis 0 of a `K × N` right operand and
  have no batch axes, the contraction index is one coordinate `k : Fin K`, the left operand is read at `(a, k)` and the
  right operand at `(k, b)`: the sum over the contraction index is `∑ k : Fin K`. At the ideal instance this reads a
  kernel's matrix product into a zero accumulator, and a host program's `dot_general`, at entry `(a, b)`.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index of a plain `M × K` by `K × N` product, as a sum over `Fin K`. -/
theorem plain_sum {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    {α : Type} [AddCommMonoid α] (f : (⟨2, ![M, K]⟩ : Shape).Idx → (⟨2, ![K, N]⟩ : Shape).Idx → α) (a : Fin M) (b : Fin N) :
    ∑ k : d.contr.Idx, f (d.lhsIdx (ix2 a b) k) (d.rhsIdx (ix2 a b) k) = ∑ k : Fin K, f (ix2 a k) (ix2 k b) := by
  obtain ⟨lc, rc, ln, rn, lb, rb, wf⟩ := d
  dsimp only at h1 h2 h3 h4 h5 h6
  subst h1 h2 h3 h4 h5 h6
  have hr : (DotDims.mk [1] [0] [0] [1] [] [] wf : DotDims ⟨2, ![M, K]⟩ ⟨2, ![K, N]⟩ ⟨2, ![M, N]⟩).contr.rank = 1 := rfl
  have hs : (DotDims.mk [1] [0] [0] [1] [] [] wf : DotDims ⟨2, ![M, K]⟩ ⟨2, ![K, N]⟩ ⟨2, ![M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
  · funext c
    match c with
    | ⟨0, _⟩ => exact Fin.ext rfl
    | ⟨1, _⟩ => exact Fin.ext rfl

/-- A kernel's matrix product into the zero accumulator, at the ideal instance, at entry `(a, b)`. -/
theorem matmul_zero_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    matmul d prec l r (constant ⟨2, ![M, N]⟩ .f32 0x00000000#32) (ix2 a b) = ∑ k : Fin K, l (ix2 a k) * r (ix2 k b) := by
  show FloatOps.matmul d prec l r (constant ⟨2, ![M, N]⟩ .f32 0x00000000#32) (ix2 a b) = _
  rw [Ideal.matmul_constant_zero_apply]
  exact plain_sum d h1 h2 h3 h4 h5 h6 (fun i j => l i * r j) a b

/-- A host program's `dot_general`, at the ideal instance, at entry `(a, b)`. -/
theorem dotGeneral_apply {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) {φ₁ φ₂ : FTy}
    (prec : Option ContractPrecision) (l : FVec Ideal ⟨2, ![M, K]⟩ φ₁) (r : FVec Ideal ⟨2, ![K, N]⟩ φ₂) (a : Fin M) (b : Fin N) :
    Host.dotGeneral d prec l r (ix2 a b) = ∑ k : Fin K, l (ix2 a k) * r (ix2 k b) := by
  show FloatOps.dotGeneral d prec .single l r (ix2 a b) = _
  rw [Ideal.dotGeneral_apply]
  exact plain_sum d h1 h2 h3 h4 h5 h6 (fun i j => l i * r j) a b

end Cert.LibDot

end
-- ==== Proof.LibStack.lean ====
/-
  A stack of matrices against the tall matrix of all their rows, and a sum over the stack's middle axis.

  A stack `[A, B, C]` of `A` matrices of `B` rows and the tall matrix `[A · B, C]` of all those rows hold the same numbers
  in the same row-major order: row `p · B + n` of the tall matrix is row `n` of matrix `p`. Shape casts either way read
  accordingly at coordinates. An f32 lane sum over the middle axis of the stack, at the extended reals, is at `(p, d)` the
  `Fin`-indexed sum over `n` of the entries `(p, n, d)`.
-/
import Idealize.ShloMosaic.Lib.ValueLayout
import Idealize.ShloMosaic.PureOps.Ideal.Laws

noncomputable section

open scoped BigOperators

namespace Cert.LibStack

open Idealize.ShloMosaic Idealize.ShloMosaic.ValueIdx

/-- A stack `[A, B, C]` flattened to the tall matrix `[R, C]` (`R = A · B`): row `p · B + n` is row `n` of matrix `p`. -/
theorem flatten_apply {α : Type} {A B C R : Nat} (x : (⟨3, ![A, B, C]⟩ : Shape).Idx → α)
    (h : (⟨3, ![A, B, C]⟩ : Shape).ShapeCasts ⟨2, ![R, C]⟩) (p : Fin A) (n : Fin B) (s : Fin C) (r : Fin R)
    (hr : r.val = p.val * B + n.val) : shapeCast ⟨2, ![R, C]⟩ x h (ix2 r s) = x (ix3 p n s) :=
  shapeCast_apply x h _ _ (by
    rw [Shape.rowMajor_val_three, Shape.rowMajor_val_two]
    show (p.val * B + n.val) * C + s.val = r.val * C + s.val
    rw [hr])

/-- The tall matrix `[R, C]` cut back into the stack `[A, B, C]`: row `n` of matrix `p` is row `p · B + n`. -/
theorem unflatten_apply {α : Type} {A B C R : Nat} (y : (⟨2, ![R, C]⟩ : Shape).Idx → α)
    (h : (⟨2, ![R, C]⟩ : Shape).ShapeCasts ⟨3, ![A, B, C]⟩) (p : Fin A) (n : Fin B) (s : Fin C) (r : Fin R)
    (hr : r.val = p.val * B + n.val) : shapeCast ⟨3, ![A, B, C]⟩ y h (ix3 p n s) = y (ix2 r s) :=
  shapeCast_apply y h _ _ (by
    rw [Shape.rowMajor_val_three, Shape.rowMajor_val_two]
    show r.val * C + s.val = (p.val * B + n.val) * C + s.val
    rw [hr])

/-- An f32 lane sum over the middle axis of a stack `[A, B, C]` is, at `(p, d)`, the sum over `n` of the entries `(p, n, d)`. -/
theorem sum_middle_apply {A B C : Nat} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = FKind.add.neutral .f32 hφ) (p : Fin A) (d : Fin C) :
    multiReduction .add [1] ⟨2, ![A, C]⟩ src 0x00000000#32 h hφ hacc (ix2 p d) = ∑ n : Fin B, src (ix3 p n d) :=
  (Ideal.multiReduction_add_single src 0x00000000#32 h hφ hacc (ix2 p d)).trans
    (Finset.sum_congr rfl fun n _ => congrArg src (funext fun ax => Fin.ext (by
      match ax with
      | ⟨0, _⟩ => rfl
      | ⟨1, _⟩ => rfl
      | ⟨2, _⟩ => rfl)))

end Cert.LibStack

end
-- ==== Proof.KLayers.lean ====
/-
  The two-dimensional phase of the kernel body, read at an entry.

  One block of the kernel holds 16 image rows of 128 pixels with 256 channels each. The body flattens the block to a
  tall matrix of 2048 = 16 · 128 pixel rows: row `r = hh · 128 + w` is pixel `w` of image row `hh`. On that matrix every
  1×1 convolution is a plain matrix product against a weight matrix, `∑ c, x c · W c j` at row `r` and column `j`; an
  inference batch norm is the entrywise expression `(g · (y − m)) · rsqrt(v + ε) + b`, whose four channel vectors are
  laid as one row and repeated down the 2048 rows, so that at `(r, j)` each contributes its entry `j`; a ReLU is the
  entrywise maximum with zero. Roundings to the narrower float format are the identity on the extended reals. Read at
  `(r, j)`, each stage is therefore the corresponding plain function of the pixel's channel values: the first two-layer
  network up to its second convolution, the repeated mean of the second batch norm, the second batch norm with its
  ReLU, and the first convolution and batch norm of the second network.
-/
import proofs.«149783_j43911745634356_1_alg».proof.Proof.Gen.KernelIdeal.Skeleton
import proofs.«149783_j43911745634356_1_alg».proof.Proof.Spec
import proofs.«149783_j43911745634356_1_alg».proof.Proof.LibDot
import proofs.«149783_j43911745634356_1_alg».proof.Proof.LibStack
import Idealize.ShloMosaic.Lib.ValueLayout
import Idealize.ShloMosaic.PureOps.Ideal.Laws

noncomputable section

namespace Cert.KernelIdeal.Layers

open Cert.KernelIdeal Cert.KernelIdeal.Gen Cert.Attn Idealize.ShloMosaic Idealize.ShloMosaic.ValueIdx

/-- A vector of 128 channel values laid as one row and repeated down 2048 rows reads, at row `r` and channel `j`,
    the vector at `j`. -/
private theorem row_apply (v : FVec Ideal S128 .f32) (h1 : S128.ShapeCasts S1x128) (h2 : S1x128.Broadcasts S2048x128)
    (r : Fin 2048) (j : Fin 128) :
    broadcastTo S2048x128 (shapeCast S1x128 v h1) h2 (ix2 r j) = v (ix1 j) :=
  (broadcastTo_1b_ab_apply _ h2 r j).trans (shapeCast_a_1a_apply v h1 0 j)

/-- The printed batch norm `(g · (y − m)) · rsqrt(v + ε) + b` of a 2048 × 128 array `Y` against an already repeated mean
    `M`, read at row `r` and channel `j`. -/
private theorem bn_apply (g b v : FVec Ideal S128 .f32) (Y M : FVec Ideal S2048x128 .f32) (h1 : S128.ShapeCasts S1x128)
    (h2 : S1x128.Broadcasts S2048x128) (r : Fin 2048) (j : Fin 128) :
    addf
        (mulf (mulf (broadcastTo S2048x128 (shapeCast S1x128 g h1) h2) (subf Y M))
          (broadcastTo S2048x128
            (shapeCast S1x128 (rsqrt (addf v (broadcast S128 (FloatOps.ofBits (F := Ideal) FTy.f32 0x3A83126F#32)))) h1) h2))
        (broadcastTo S2048x128 (shapeCast S1x128 b h1) h2) (ix2 r j)
      = bn (g (ix1 j)) (b (ix1 j)) (M (ix2 r j)) (v (ix1 j)) (Y (ix2 r j)) := by
  rw [addf_apply, mulf_apply, mulf_apply, subf_apply, row_apply, row_apply, row_apply]
  rfl

/-- The block flattened to 2048 pixel rows: row `hh · 128 + w` is pixel `w` of image row `hh`. -/
theorem pay2_apply (v0 : Vec Ideal S1x16x128x256 .f32) (hh : Fin 16) (w : Fin 128) (c : Fin 256) (r : Fin 2048)
    (hr : r.val = hh.val * 128 + w.val) : k0_pay2 (F := Ideal) v0 (ix2 r c) = v0 (ix4 (0 : Fin 1) hh w c) := by
  unfold k0_pay2
  exact (Cert.LibStack.flatten_apply (A := 16) (B := 128) (C := 256) (R := 2048) _ _ hh w c r hr).trans
    (shapeCast_1abc_abc_apply v0 _ hh w c)

/-- The first layer (convolution, batch norm, ReLU) followed by the second convolution, at pixel `w` of image row `hh`. -/
theorem pay3_apply (v0 : Vec Ideal S1x16x128x256 .f32) (v3 : Vec Ideal S256x128 .f32) (v4 v5 v6 v7 : Vec Ideal S128 .f32)
    (v8 : Vec Ideal S128x128 .f32) (hh : Fin 16) (w : Fin 128) (r : Fin 2048) (hr : r.val = hh.val * 128 + w.val) (j : Fin 128) :
    k0_pay3 (F := Ideal) v0 v3 v4 v5 v6 v7 v8 (ix2 r j)
      = conv (layer (mat v3) (vec v4) (vec v5) (vec v6) (vec v7) (fun c => v0 (ix4 (0 : Fin 1) hh w c))) (mat v8) j := by
  unfold k0_pay3
  rw [Cert.LibDot.matmul_zero_apply (M := 2048) (K := 128) (N := 128) _ rfl rfl rfl rfl rfl rfl]
  change _ = ∑ k : Fin 128,
    layer (mat v3) (vec v4) (vec v5) (vec v6) (vec v7) (fun c => v0 (ix4 (0 : Fin 1) hh w c)) k * mat v8 k j
  refine Finset.sum_congr rfl fun k _ => ?_
  rw [truncf_apply, truncf_apply, maximumf_apply, bn_apply, row_apply,
    Cert.LibDot.matmul_zero_apply (M := 2048) (K := 256) (N := 128) _ rfl rfl rfl rfl rfl rfl]
  have hs : (∑ c : Fin 256, truncf .bf16 (k0_pay2 (F := Ideal) v0) bitsLt_bf16_f32 (ix2 r c)
        * truncf .bf16 v3 bitsLt_bf16_f32 (ix2 c k))
      = conv (fun c => v0 (ix4 (0 : Fin 1) hh w c)) (mat v3) k :=
    Finset.sum_congr rfl fun c _ => by rw [truncf_apply, truncf_apply, pay2_apply v0 hh w c r hr]; rfl
  rw [hs]
  rfl

/-- The second batch norm's mean repeated down the rows. -/
theorem pay4_apply (v11 : Vec Ideal S128 .f32) (r : Fin 2048) (j : Fin 128) : k0_pay4 (F := Ideal) v11 (ix2 r j) = v11 (ix1 j) := by
  unfold k0_pay4
  exact row_apply v11 _ _ r j

/-- The second batch norm, against its already repeated mean, and the ReLU. -/
theorem pay5_apply (v9 v10 v12 : Vec Ideal S128 .f32) (Y M : FVec Ideal S2048x128 .f32) (r : Fin 2048) (j : Fin 128) :
    k0_pay5 (F := Ideal) v9 v10 v12 Y M (ix2 r j) = relu (bn (v9 (ix1 j)) (v10 (ix1 j)) (M (ix2 r j)) (v12 (ix1 j)) (Y (ix2 r j))) := by
  unfold k0_pay5
  rw [maximumf_apply, bn_apply]
  rfl

/-- The first convolution and batch norm of the second network, on the flattened pixel rows. -/
theorem pay6_apply (X : FVec Ideal S2048x256 .f32) (v53 : Vec Ideal S256x128 .f32) (v54 v55 v56 v57 : Vec Ideal S128 .f32)
    (r : Fin 2048) (j : Fin 128) :
    k0_pay6 (F := Ideal) X v53 v54 v55 v56 v57 (ix2 r j)
      = bn (v54 (ix1 j)) (v55 (ix1 j)) (v56 (ix1 j)) (v57 (ix1 j)) (conv (fun c => X (ix2 r c)) (mat v53) j) := by
  unfold k0_pay6
  rw [bn_apply, row_apply, Cert.LibDot.matmul_zero_apply (M := 2048) (K := 256) (N := 128) _ rfl rfl rfl rfl rfl rfl]
  rfl

end Cert.KernelIdeal.Layers

end
-- ==== Proof.LibBatchNT.lean ====
/-
  A general lemma: a kernel's BATCHED matrix product whose two operands are contracted along their LAST axis,
  `[B, M, K]` by `[B, N, K]` into `[B, M, N]` (batch axis 0 on both sides; what `einsum('bmk,bnk->bmn')` lowers to),
  into the zero accumulator, at the ideal instance, read at an entry as a sum over `k`.
-/
import Idealize.ShloMosaic.PureOps.Ideal
import Idealize.ShloMosaic.PureOps.Ideal.Laws
import Idealize.ShloMosaic.Lib.ValueIdx

noncomputable section

namespace Cert.LibBatchNT

open Idealize.ShloMosaic Idealize.ShloMosaic.ValueIdx

/-- The sum over the contraction index, as a sum over `Fin K`: the left operand is read at `(b, a, k)` and the right
    operand at `(b, n, k)`. -/
theorem batch_sum {B M N K : Nat} (d : DotDims ⟨3, ![B, M, K]⟩ ⟨3, ![B, N, K]⟩ ⟨3, ![B, M, N]⟩)
    (h1 : d.lhsContracting = [2]) (h2 : d.rhsContracting = [2]) (h3 : d.lhsNonContracting = [1])
    (h4 : d.rhsNonContracting = [1]) (h5 : d.lhsBatch = [0]) (h6 : d.rhsBatch = [0])
    {α : Type} [AddCommMonoid α] (f : (⟨3, ![B, M, K]⟩ : Shape).Idx → (⟨3, ![B, N, K]⟩ : Shape).Idx → α)
    (b : Fin B) (a : Fin M) (n : Fin N) :
    ∑ k : d.contr.Idx, f (d.lhsIdx (ix3 b a n) k) (d.rhsIdx (ix3 b a n) k)
      = ∑ k : Fin K, f (ix3 b a k) (ix3 b n k) := by
  obtain ⟨lc, rc, ln, rn, lb, rb, wf⟩ := d
  dsimp only at h1 h2 h3 h4 h5 h6
  subst h1 h2 h3 h4 h5 h6
  -- the contraction index has one coordinate, of extent K
  have hr : (DotDims.mk [2] [2] [1] [1] [0] [0] wf :
      DotDims ⟨3, ![B, M, K]⟩ ⟨3, ![B, N, K]⟩ ⟨3, ![B, M, N]⟩).contr.rank = 1 := rfl
  have hs : (DotDims.mk [2] [2] [1] [1] [0] [0] wf :
      DotDims ⟨3, ![B, M, K]⟩ ⟨3, ![B, N, K]⟩ ⟨3, ![B, M, N]⟩).contr.size ⟨0, by omega⟩ = K := rfl
  rw [← Equiv.sum_comp (contrEquiv1 _ K hr hs).symm]
  refine Finset.sum_congr rfl fun k _ => ?_
  congr 1
  · -- the left operand's index, axis by axis: batch, row, contraction
    funext c
    match c with
    | ⟨0, _⟩ => exact Fin.ext rfl
    | ⟨1, _⟩ => exact Fin.ext rfl
    | ⟨2, _⟩ => exact Fin.ext rfl
  · -- the right operand's index, axis by axis: batch, column, contraction
    funext c
    match c with
    | ⟨0, _⟩ => exact Fin.ext rfl
    | ⟨1, _⟩ => exact Fin.ext rfl
    | ⟨2, _⟩ => exact Fin.ext rfl

/-- THE KERNEL'S BATCHED PRODUCT INTO THE ZERO ACCUMULATOR, at the ideal instance, at entry `(b, a, n)`. -/
theorem matmul_zero_apply {B M N K : Nat} (d : DotDims ⟨3, ![B, M, K]⟩ ⟨3, ![B, N, K]⟩ ⟨3, ![B, M, N]⟩)
    (h1 : d.lhsContracting = [2]) (h2 : d.rhsContracting = [2]) (h3 : d.lhsNonContracting = [1])
    (h4 : d.rhsNonContracting = [1]) (h5 : d.lhsBatch = [0]) (h6 : d.rhsBatch = [0]) {φ₁ φ₂ : FTy}
    (prec : Option ContractPrecision) (l : FVec Ideal ⟨3, ![B, M, K]⟩ φ₁) (r : FVec Ideal ⟨3, ![B, N, K]⟩ φ₂)
    (b : Fin B) (a : Fin M) (n : Fin N) :
    matmul d prec l r (constant ⟨3, ![B, M, N]⟩ .f32 0x00000000#32) (ix3 b a n) = ∑ k : Fin K, l (ix3 b a k) * r (ix3 b n k) := by
  show FloatOps.matmul d prec l r (constant ⟨3, ![B, M, N]⟩ .f32 0x00000000#32) (ix3 b a n) = _
  rw [Ideal.matmul_constant_zero_apply]
  exact batch_sum d h1 h2 h3 h4 h5 h6 (fun i j => l i * r j) b a n

end Cert.LibBatchNT

end
-- ==== Proof.LibBatchDot.lean ====
/-
  A batched matrix product read at an entry.

  For dimension numbers with one batch axis (axis 0 of both operands), contracting axis 2 of a `B × M × K` left
  operand with axis 1 of a `B × K × N` right operand, the contraction index is one coordinate `k : Fin K`: entry
  `(b, a, n)` of a host program's `dot_general` at the ideal instance is `∑ k, l[b, a, k] · r[b, k, n]`.
-/
import Idealize.ShloMosaic.PureOps.Ideal
import Idealize.ShloMosaic.PureOps.Ideal.Laws
import Idealize.ShloMosaic.Lib.ValueIdx

noncomputable section

open scoped BigOperators

namespace Cert.LibBatchDot

open Idealize.ShloMosaic Idealize.ShloMosaic.ValueIdx

/-- The sum over the contraction index of a batched `B × M × K` by `B × K × N` product, as a sum over `Fin K`:
    the left operand is read at `(b, a, k)` and the right operand at `(b, k, n)`. -/
theorem batch_sum {B M K N : Nat} (d : DotDims ⟨3, ![B, M, K]⟩ ⟨3, ![B, K, N]⟩ ⟨3, ![B, M, N]⟩)
    (h1 : d.lhsContracting = [2]) (h2 : d.rhsContracting = [1]) (h3 : d.lhsNonContracting = [1])
    (h4 : d.rhsNonContracting = [2]) (h5 : d.lhsBatch = [0]) (h6 : d.rhsBatch = [0])
    {α : Type} [AddCommMonoid α] (f : (⟨3, ![B, M, K]⟩ : Shape).Idx → (⟨3, ![B, K, N]⟩ : Shape).Idx → α)
    (b : Fin B) (a : Fin M) (n : Fin N) :
    ∑ k : d.contr.Idx, f (d.lhsIdx (ix3 b a n) k) (d.rhsIdx (ix3 b a n) k)
      = ∑ k : Fin K, f (ix3 b a k) (ix3 b k n) := by
  obtain ⟨lc, rc, ln, rn, lb, rb, wf⟩ := d
  dsimp only at h1 h2 h3 h4 h5 h6
  subst h1 h2 h3 h4 h5 h6
  have hr : (DotDims.mk [2] [1] [1] [2] [0] [0] wf :
      DotDims ⟨3, ![B, M, K]⟩ ⟨3, ![B, K, N]⟩ ⟨3, ![B, M, N]⟩).contr.rank = 1 := rfl
  have hs : (DotDims.mk [2] [1] [1] [2] [0] [0] wf :
      DotDims ⟨3, ![B, M, K]⟩ ⟨3, ![B, K, N]⟩ ⟨3, ![B, M, N]⟩).contr.size ⟨0, by omega⟩ = K := rfl
  rw [← Equiv.sum_comp (contrEquiv1 _ K hr hs).symm]
  refine Finset.sum_congr rfl fun k _ => ?_
  congr 1
  · funext c
    match c with
    | ⟨0, _⟩ => exact Fin.ext rfl
    | ⟨1, _⟩ => exact Fin.ext rfl
    | ⟨2, _⟩ => exact Fin.ext rfl
  · funext c
    match c with
    | ⟨0, _⟩ => exact Fin.ext rfl
    | ⟨1, _⟩ => exact Fin.ext rfl
    | ⟨2, _⟩ => exact Fin.ext rfl

/-- A host program's batched `dot_general`, at the ideal instance, at entry `(b, a, n)`. -/
theorem batch_dotGeneral_apply {B M K N : Nat} (d : DotDims ⟨3, ![B, M, K]⟩ ⟨3, ![B, K, N]⟩ ⟨3, ![B, M, N]⟩)
    (h1 : d.lhsContracting = [2]) (h2 : d.rhsContracting = [1]) (h3 : d.lhsNonContracting = [1])
    (h4 : d.rhsNonContracting = [2]) (h5 : d.lhsBatch = [0]) (h6 : d.rhsBatch = [0]) {φ₁ φ₂ : FTy}
    (prec : Option ContractPrecision) (l : FVec Ideal ⟨3, ![B, M, K]⟩ φ₁) (r : FVec Ideal ⟨3, ![B, K, N]⟩ φ₂)
    (b : Fin B) (a : Fin M) (n : Fin N) :
    Host.dotGeneral d prec l r (ix3 b a n) = ∑ k : Fin K, l (ix3 b a k) * r (ix3 b k n) := by
  show FloatOps.dotGeneral d prec .single l r (ix3 b a n) = _
  rw [Ideal.dotGeneral_apply]
  exact batch_sum d h1 h2 h3 h4 h5 h6 (fun i j => l i * r j) b a n

end Cert.LibBatchDot

end
-- ==== Proof.LibBatchMatmul.lean ====
/-
  A kernel's batched matrix product `[B, M, K]` by `[B, K, N]` into the zero accumulator (what
  `einsum('bmk,bkn->bmn')` lowers to), at the extended reals, read at an entry: `∑ k, l[b, a, k] · r[b, k, n]`.
  The contraction index is one coordinate `k : Fin K`; the sum over it is the one a host `dot_general` with the same
  dimension numbers takes.
-/
import proofs.«149783_j43911745634356_1_alg».proof.Proof.LibBatchDot

noncomputable section

open scoped BigOperators

namespace Cert.LibBatchMatmul

open Idealize.ShloMosaic Idealize.ShloMosaic.ValueIdx

/-- The batched product into the zero accumulator at entry `(b, a, n)`. -/
theorem matmul_zero_apply {B M K N : Nat} (d : DotDims ⟨3, ![B, M, K]⟩ ⟨3, ![B, K, N]⟩ ⟨3, ![B, M, N]⟩)
    (h1 : d.lhsContracting = [2]) (h2 : d.rhsContracting = [1]) (h3 : d.lhsNonContracting = [1])
    (h4 : d.rhsNonContracting = [2]) (h5 : d.lhsBatch = [0]) (h6 : d.rhsBatch = [0]) {φ₁ φ₂ : FTy}
    (prec : Option ContractPrecision) (l : FVec Ideal ⟨3, ![B, M, K]⟩ φ₁) (r : FVec Ideal ⟨3, ![B, K, N]⟩ φ₂)
    (b : Fin B) (a : Fin M) (n : Fin N) :
    matmul d prec l r (constant ⟨3, ![B, M, N]⟩ .f32 0x00000000#32) (ix3 b a n) = ∑ k : Fin K, l (ix3 b a k) * r (ix3 b k n) := by
  show FloatOps.matmul d prec l r (constant ⟨3, ![B, M, N]⟩ .f32 0x00000000#32) (ix3 b a n) = _
  rw [Ideal.matmul_constant_zero_apply]
  exact Cert.LibBatchDot.batch_sum d h1 h2 h3 h4 h5 h6 (fun i j => l i * r j) b a n

end Cert.LibBatchMatmul

end
-- ==== Proof.LibLastAxis.lean ====
/-
  The last axis of a rank-3 stack `[a, b, n]`, read at coordinates.

  A reduction over the last axis that keeps it (`jnp.max(…, axis=-1, keepdims=True)`, the two reductions inside a softmax)
  is, in a kernel, a lane reduction `[a, b, n] → [a, b]`, a shape cast `[a, b] → [a, b, 1]` and a broadcast
  `[a, b, 1] → [a, b, n]` back over the stack. Here each of the three is read at an index given by its coordinates, at
  the extended reals: the float sum is the `Fin n`-indexed sum of the fibre, the float maximum the fold of `max` over the
  fibre from the accumulator's value.
-/
import Idealize.ShloMosaic.Lib.ValueLayout
import Idealize.ShloMosaic.PureOps.Ideal.Laws

noncomputable section

open scoped BigOperators

namespace Cert.LibLastAxis

open Idealize.ShloMosaic Idealize.ShloMosaic.ValueIdx

variable {α : Type}

/-- An `[a, b]` array cast to `[a, b, 1]` reads, at `(p, q, u)`, the operand at `(p, q)`, whatever the unit coordinate. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- `[a, b, 1]` broadcast to `[a, b, n]` reads, at `(p, q, k)`, the entry `(p, q, 0)`. -/
theorem broadcastTo_ab1_abn_apply {a b n : ℕ} (v : (⟨3, ![a, b, 1]⟩ : Shape).Idx → α)
    (h : (⟨3, ![a, b, 1]⟩ : Shape).Broadcasts ⟨3, ![a, b, n]⟩) (p : Fin a) (q : Fin b) (k : Fin n) :
    broadcastTo ⟨3, ![a, b, n]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An f32 lane sum over the last axis of a stack `[a, b, n]`: at `(p, q)`, the sum of that fibre. -/
theorem sum_last_apply {a b n : ℕ} (src : FVec Ideal ⟨3, ![a, b, n]⟩ .f32)
    (h : (⟨3, ![a, b, n]⟩ : Shape).Reduces [2] ⟨2, ![a, b]⟩) (hφ : FKind.Formats .f32)
    (hacc : (0x00000000#32 : BitVec 32) = FKind.add.neutral .f32 hφ) (p : Fin a) (q : Fin b) :
    multiReduction .add [2] ⟨2, ![a, b]⟩ src 0x00000000#32 h hφ hacc (ix2 p q) = ∑ k : Fin n, src (ix3 p q k) :=
  (Ideal.multiReduction_add_single src 0x00000000#32 h hφ hacc (ix2 p q)).trans
    (Finset.sum_congr rfl fun k _ => congrArg src (funext fun ax => Fin.ext (by
      match ax with
      | ⟨0, _⟩ => rfl
      | ⟨1, _⟩ => rfl
      | ⟨2, _⟩ => rfl)))

/-- An f32 lane maximum over the last axis of a stack `[a, b, n]`: at `(p, q)`, the maximum of that fibre from the
    accumulator's value. -/
theorem max_last_apply {a b n : ℕ} (src : FVec Ideal ⟨3, ![a, b, n]⟩ .f32) (acc : BitVec 32)
    (h : (⟨3, ![a, b, n]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin n)).fold max (Ideal.ofBits .f32 acc) fun k => src (ix3 p q k) :=
  (Ideal.multiReduction_maximumf_single src acc h hφ hacc (ix2 p q)).trans
    (Finset.fold_congr fun k _ => congrArg src (funext fun ax => Fin.ext (by
      match ax with
      | ⟨0, _⟩ => rfl
      | ⟨1, _⟩ => rfl
      | ⟨2, _⟩ => rfl)))

end Cert.LibLastAxis

end
-- ==== Proof.KCore.lean ====
/-
  The attention core of the kernel body and its closing 1×1 convolution, read at an entry.

  The body holds a block of 16 image rows of 128 pixels as one tall matrix of 2048 pixels: row `hh · 128 + v` of the tall
  matrix is pixel `v` of image row `hh`. From the finished theta features, phi's first layer before its ReLU, and the
  input block, it forms phi's second layer (ReLU, product with the weights, inference batch norm, ReLU) and the gamma
  features (one product with the weights), cuts the three tall matrices into stacks of 16 rows, and then, row by row:
  the scaled inner products of theta at `w` with phi at `v`; their maximum over `v` started at minus infinity; the
  exponentials of the scores less that maximum; their sum over `v`; the quotients; and the sum over `v` of the quotients
  times the gamma features of `v`. Entry `(hh, w, c)` of the result is the attention core of image row `hh` at pixel `w`,
  feature `c`, as a plain function of that row's pixels. The closing convolution flattens the stack of attended features,
  multiplies by the 128 × 256 weights and cuts the product back into rows: entry `(0, hh, w, f)` is the convolution at
  pixel `w` of row `hh`.

  Over the extended reals the narrowing of a product's operands is the identity, a product into the zero accumulator is
  the `Fin`-indexed sum over the contraction index, and every elementwise operation reads entry by entry.
-/
import proofs.«149783_j43911745634356_1_alg».proof.Proof.Gen.KernelIdeal.Skeleton
import proofs.«149783_j43911745634356_1_alg».proof.Proof.Spec
import proofs.«149783_j43911745634356_1_alg».proof.Proof.LibDot
import proofs.«149783_j43911745634356_1_alg».proof.Proof.LibBatchNT
import proofs.«149783_j43911745634356_1_alg».proof.Proof.LibBatchMatmul
import proofs.«149783_j43911745634356_1_alg».proof.Proof.LibStack
import proofs.«149783_j43911745634356_1_alg».proof.Proof.LibLastAxis
import Idealize.ShloMosaic.Lib.ValueLayout
import Idealize.ShloMosaic.Lib.Pipeline.Value
import Idealize.ShloMosaic.PureOps.Ideal.Laws

noncomputable section

namespace Cert.KernelIdeal.Core

open Cert.KernelIdeal Cert.KernelIdeal.Gen Cert.Attn Idealize.ShloMosaic Idealize.ShloMosaic.ValueIdx

/-- The row of a `[128]` vector laid over all 2048 pixels. -/
private def rowOf (x : Vec Ideal S128 .f32) : FVec Ideal S2048x128 .f32 :=
  broadcastTo S2048x128 (shapeCast S1x128 x shapeCasts_S128_S1x128) broadcasts_S1x128_S2048x128

/-- Phi's second layer on the whole block: ReLU of the first layer, product with the weights, batch norm, ReLU. -/
private def phiA (v58 : Vec Ideal S128x128 .f32) (v59 v60 v61 v62 : Vec Ideal S128 .f32) (PB : FVec Ideal S2048x128 .f32) :
    FVec Ideal S2048x128 .f32 :=
  maximumf
    (addf
      (mulf
        (mulf (rowOf v59)
          (subf
            (matmul dot_S2048x128_S128x128_S2048x128_1_0_0_1_n_n none
              (truncf .bf16 (maximumf PB (broadcast S2048x128 (Scalar.ofBits (F := Ideal) .f32 0x00000000#32))) bitsLt_bf16_f32)
              (truncf .bf16 v58 bitsLt_bf16_f32) (constant S2048x128 .f32 0x00000000#32))
            (rowOf v61)))
        (rowOf (rsqrt (addf v62 (broadcast S128 (Scalar.ofBits (F := Ideal) .f32 0x3A83126F#32))))))
      (rowOf v60))
    (broadcast S2048x128 (Scalar.ofBits (F := Ideal) .f32 0x00000000#32))

/-- The gamma features of the whole block. -/
private def gamA (X : FVec Ideal S2048x256 .f32) (v103 : Vec Ideal S256x128 .f32) : FVec Ideal S2048x128 .f32 :=
  matmul dot_S2048x256_S256x128_S2048x128_1_0_0_1_n_n none (truncf .bf16 X bitsLt_bf16_f32) (truncf .bf16 v103 bitsLt_bf16_f32)
    (constant S2048x128 .f32 0x00000000#32)

/-- The scaled scores of every row: the batched product of theta against phi along the feature axis, times the scale. -/
private def scoreA (T P : FVec Ideal S16x128x128 .f32) : FVec Ideal S16x128x128 .f32 :=
  mulf (broadcast S16x128x128 (Scalar.ofBits (F := Ideal) .f32 0x3DB504F3#32))
    (matmul dot_S16x128x128_S16x128x128_S16x128x128_2_2_1_1_0_0 none (truncf .bf16 T bitsLt_bf16_f32) (truncf .bf16 P bitsLt_bf16_f32)
      (constant S16x128x128 .f32 0x00000000#32))

/-- The running maximum of each row of scores, laid back over the row. -/
private def rmaxA (S : FVec Ideal S16x128x128 .f32) : FVec Ideal S16x128x128 .f32 :=
  broadcastTo S16x128x128
    (shapeCast S16x128x1
      (maximumf (broadcast S16x128 (Scalar.ofBits (F := Ideal) .f32 0xFF800000#32))
        (multiReduction .maximumf [2] S16x128 S 0xFF800000#32 reduces_S16x128x128_S16x128 (.inl rfl) rfl))
      shapeCasts_S16x128_S16x128x1)
    broadcasts_S16x128x1_S16x128x128

/-- The exponentials of the scores less their row maximum. -/
private def expA (S : FVec Ideal S16x128x128 .f32) : FVec Ideal S16x128x128 .f32 := exp (subf S (rmaxA S))

/-- The softmax weights of every row. -/
private def probA (S : FVec Ideal S16x128x128 .f32) : FVec Ideal S16x128x128 .f32 :=
  divf (expA S)
    (broadcastTo S16x128x128
      (shapeCast S16x128x1
        (multiReduction .add [2] S16x128 (expA S) 0x00000000#32 reduces_S16x128x128_S16x128 (.inl rfl) rfl)
        shapeCasts_S16x128_S16x128x1)
      broadcasts_S16x128x1_S16x128x128)

/-- The payload is the batched product of the softmax weights with the gamma features, all taken from the pieces above. -/
private theorem pay7_eq (X : FVec Ideal S2048x256 .f32) (TH : FVec Ideal S2048x128 .f32) (v58 : Vec Ideal S128x128 .f32)
    (v59 v60 v61 v62 : Vec Ideal S128 .f32) (PB : FVec Ideal S2048x128 .f32) (v103 : Vec Ideal S256x128 .f32) :
    k0_pay7 (F := Ideal) X TH v58 v59 v60 v61 v62 PB (Scalar.ofBits .f32 0x00000000#32) v103
      = matmul dot_S16x128x128_S16x128x128_S16x128x128_2_1_1_2_0_0 none
          (truncf .bf16
            (probA (scoreA (shapeCast S16x128x128 TH shapeCasts_S2048x128_S16x128x128)
              (shapeCast S16x128x128 (phiA v58 v59 v60 v61 v62 PB) shapeCasts_S2048x128_S16x128x128)))
            bitsLt_bf16_f32)
          (truncf .bf16 (shapeCast S16x128x128 (gamA X v103) shapeCasts_S2048x128_S16x128x128) bitsLt_bf16_f32)
          (constant S16x128x128 .f32 0x00000000#32) := rfl

/-- A `[128]` vector laid over all pixels reads, at pixel `r` and channel `j`, its own entry `j`. -/
private theorem rowOf_apply (x : Vec Ideal S128 .f32) (r : Fin 2048) (j : Fin 128) : rowOf x (ix2 r j) = x (ix1 j) := by
  unfold rowOf
  exact (broadcastTo_1b_ab_apply _ _ r j).trans (shapeCast_a_1a_apply _ _ 0 j)

/-- Phi's second layer at pixel `r`, feature `j`. -/
private theorem phiA_apply (v58 : Vec Ideal S128x128 .f32) (v59 v60 v61 v62 : Vec Ideal S128 .f32) (PB : FVec Ideal S2048x128 .f32)
    (r : Fin 2048) (j : Fin 128) :
    phiA v58 v59 v60 v61 v62 PB (ix2 r j)
      = layer (mat v58) (vec v59) (vec v60) (vec v61) (vec v62) (fun k => relu (PB (ix2 r k))) j := by
  unfold phiA
  simp only [maximumf_apply, addf_apply, mulf_apply, subf_apply, rowOf_apply]
  rw [Cert.LibDot.matmul_zero_apply (M := 2048) (K := 128) (N := 128) _ rfl rfl rfl rfl rfl rfl]
  rfl

/-- The gamma features at pixel `r`, feature `c`. -/
private theorem gamA_apply (X : FVec Ideal S2048x256 .f32) (v103 : Vec Ideal S256x128 .f32) (r : Fin 2048) (c : Fin 128) :
    gamA X v103 (ix2 r c) = conv (fun c' => X (ix2 r c')) (mat v103) c := by
  unfold gamA
  exact Cert.LibDot.matmul_zero_apply (M := 2048) (K := 256) (N := 128) _ rfl rfl rfl rfl rfl rfl none _ _ r c

/-- A score: entry `(hh, w, v)` is the scaled inner product of row `w` of the first stack with row `v` of the second. -/
private theorem scoreA_apply (T P : FVec Ideal S16x128x128 .f32) (hh : Fin 16) (w v : Fin 128) :
    scoreA T P (ix3 hh w v) = score (fun k => T (ix3 hh w k)) (fun k => P (ix3 hh v k)) := by
  unfold scoreA score
  refine (mulf_apply _ _ _).trans (congrArg (scale * ·) ?_)
  exact Cert.LibBatchNT.matmul_zero_apply (B := 16) (M := 128) (N := 128) (K := 128) _ rfl rfl rfl rfl rfl rfl none _ _ hh w v

/-- The row maximum, read anywhere in its row. -/
private theorem rmaxA_apply (S : FVec Ideal S16x128x128 .f32) (hh : Fin 16) (w u : Fin 128) :
    rmaxA S (ix3 hh w u) = rowmax (fun k => S (ix3 hh w k)) := by
  unfold rmaxA rowmax
  refine (Cert.LibLastAxis.broadcastTo_ab1_abn_apply _ _ hh w u).trans ?_
  refine (Cert.LibLastAxis.shapeCast_ab_ab1_apply _ _ hh w 0).trans ?_
  refine (maximumf_apply _ _ _).trans (congrArg (max ninf) ?_)
  exact Cert.LibLastAxis.max_last_apply S _ _ _ _ hh w

/-- An exponential: the score less its row maximum, exponentiated. -/
private theorem expA_apply (S : FVec Ideal S16x128x128 .f32) (hh : Fin 16) (w u : Fin 128) :
    expA S (ix3 hh w u) = Ideal.exp (S (ix3 hh w u) - rowmax (fun k => S (ix3 hh w k))) := by
  unfold expA
  show Ideal.exp (S (ix3 hh w u) - rmaxA S (ix3 hh w u)) = _
  rw [rmaxA_apply]

/-- A softmax weight. -/
private theorem probA_apply (S : FVec Ideal S16x128x128 .f32) (hh : Fin 16) (w v : Fin 128) :
    probA S (ix3 hh w v) = softmax (fun k => S (ix3 hh w k)) v := by
  unfold probA softmax
  refine (divf_apply _ _ _).trans (congrArg₂ Ideal.div (expA_apply S hh w v) ?_)
  refine (Cert.LibLastAxis.broadcastTo_ab1_abn_apply _ _ hh w v).trans ?_
  refine (Cert.LibLastAxis.shapeCast_ab_ab1_apply _ _ hh w 0).trans ?_
  refine (Cert.LibLastAxis.sum_last_apply _ _ _ _ hh w).trans ?_
  exact Finset.sum_congr rfl fun u _ => expA_apply S hh w u

/-- The attention core of the kernel body at entry `(hh, w, c)`: the softmax weights of pixel `w` of row `hh` against every
    pixel `v` of the row, times the gamma features of `v`, summed over `v`. -/
theorem pay7_apply (X : FVec Ideal S2048x256 .f32) (TH : FVec Ideal S2048x128 .f32) (v58 : Vec Ideal S128x128 .f32)
    (v59 v60 v61 v62 : Vec Ideal S128 .f32) (PB : FVec Ideal S2048x128 .f32) (v103 : Vec Ideal S256x128 .f32)
    (hh : Fin 16) (w c : Fin 128) (row : Fin 128 → Fin 2048) (hrow : ∀ v, (row v).val = hh.val * 128 + v.val) :
    k0_pay7 (F := Ideal) X TH v58 v59 v60 v61 v62 PB (Scalar.ofBits .f32 0x00000000#32) v103 (ix3 hh w c)
      = core (fun w' j => TH (ix2 (row w') j))
          (fun v => layer (mat v58) (vec v59) (vec v60) (vec v61) (vec v62) (fun j => relu (PB (ix2 (row v) j))))
          (fun v => conv (fun c' => X (ix2 (row v) c')) (mat v103)) w c := by
  rw [pay7_eq]
  refine (Cert.LibBatchMatmul.matmul_zero_apply (B := 16) (M := 128) (K := 128) (N := 128) _ rfl rfl rfl rfl rfl rfl none _ _ hh w c).trans ?_
  unfold core attend
  refine Finset.sum_congr rfl fun v _ => ?_
  refine congrArg₂ (· * ·) ?_ ?_
  · refine (truncf_apply (φ := .f32) (ψ := .bf16) _ _ _).trans ((probA_apply _ hh w v).trans ?_)
    refine congrArg (fun s => softmax s v) (funext fun u => ?_)
    refine (scoreA_apply _ _ hh w u).trans ?_
    refine congrArg₂ score (funext fun k => ?_) (funext fun k => ?_)
    · exact Cert.LibStack.unflatten_apply _ _ hh w k (row w) (hrow w)
    · exact (Cert.LibStack.unflatten_apply _ _ hh u k (row u) (hrow u)).trans (phiA_apply v58 v59 v60 v61 v62 PB (row u) k)
  · refine (truncf_apply (φ := .f32) (ψ := .bf16) _ _ _).trans ?_
    exact (Cert.LibStack.unflatten_apply _ _ hh v c (row v) (hrow v)).trans (gamA_apply X v103 (row v) c)

/-- The closing 1×1 convolution: the stack of attended features is flattened to the tall matrix of all pixels, multiplied
    by the 128 × 256 weights, and cut back into rows; entry `(0, hh, w, f)` is the convolution of pixel `w` of row `hh`. -/
theorem pay1_apply (A : FVec Ideal S16x128x128 .f32) (RW : Vec Ideal S128x256 .f32) (hh : Fin 16) (w : Fin 128) (f : Fin 256) :
    k0_pay1 (F := Ideal) A RW (ix4 (0 : Fin 1) hh w f) = conv (fun c => A (ix3 hh w c)) (mat RW) f := by
  unfold k0_pay1
  have hlt : hh.val * 128 + w.val < 2048 := by have := hh.isLt; have := w.isLt; omega
  refine (shapeCast_abc_1abc_apply _ _ _ _ _ _).trans ?_
  refine (Cert.LibStack.unflatten_apply _ _ hh w f ⟨hh.val * 128 + w.val, hlt⟩ rfl).trans ?_
  refine (Cert.LibDot.matmul_zero_apply (M := 2048) (K := 128) (N := 256) _ rfl rfl rfl rfl rfl rfl none _ _ _ _).trans ?_
  unfold conv
  refine Finset.sum_congr rfl fun k _ => ?_
  refine congrArg (· * _) ?_
  exact Cert.LibStack.flatten_apply _ _ hh w k ⟨hh.val * 128 + w.val, hlt⟩ rfl

end Cert.KernelIdeal.Core

end
-- ==== Proof.KPayload.lean ====
/-
  The whole kernel body's value at a block entry.

  One block holds 16 image rows of 128 pixels with 256 channels each; the body computes, for every image row `hh` of
  the block separately, the width-axis self-attention of that row. Its stages are read at an entry one by one
  elsewhere: the flattening of the block to 2048 = 16 · 128 pixel rows (row `hh · 128 + v` is pixel `v` of image row
  `hh`), the two-layer network giving the theta features, the first layer of the network giving the phi features, the
  attention core (the phi network's second layer, the gamma convolution, scores, softmax and weighted sum) and the
  closing 1×1 convolution. Here the stages are composed: at pixel `w` of image row `hh` and output channel `f` the
  stored value is the row function `slabOut` of the row's pixels, with the learnt arrays read off the buffers in the
  order the programs take them. Each of the three feature maps entering the core is identified with its plain
  counterpart pixel by pixel; the closing convolution is the same sum on both sides.
-/
import proofs.«149783_j43911745634356_1_alg».proof.Proof.KLayers
import proofs.«149783_j43911745634356_1_alg».proof.Proof.KCore

noncomputable section

namespace Cert.KernelIdeal.Payload

open Cert.KernelIdeal Cert.KernelIdeal.Gen Cert.Attn Idealize.ShloMosaic Idealize.ShloMosaic.ValueIdx

/-- The flattened row of pixel `v` of image row `hh`. -/
private def row (hh : Fin 16) (v : Fin 128) : Fin 2048 :=
  ⟨hh.val * 128 + v.val, by have := hh.isLt; have := v.isLt; omega⟩

theorem payload_eq (x0 : Vec Ideal S1x16x128x256 .f32) (x1 : Vec Ideal S256x128 .f32) (x2 : Vec Ideal S128x128 .f32)
    (x3 : Vec Ideal S256x128 .f32) (x4 : Vec Ideal S128x128 .f32) (x5 : Vec Ideal S256x128 .f32) (x6 : Vec Ideal S128x256 .f32)
    (x7 x8 x9 x10 x11 x12 x13 x14 x15 x16 x17 x18 x19 x20 x21 x22 : Vec Ideal S128 .f32) (hh : Fin 16) (w : Fin 128) (f : Fin 256) :
    k0_pay1 (F := Ideal)
        (k0_pay7 (k0_pay2 x0)
          (k0_pay5 x11 x12 x14 (k0_pay3 x0 x1 x7 x8 x9 x10 x2) (k0_pay4 x13))
          x4 x19 x20 x21 x22
          (k0_pay6 (k0_pay2 x0) x3 x15 x16 x17 x18)
          (FloatOps.ofBits FTy.f32 0#32) x5)
        x6 (ix4 (0 : Fin 1) hh w f)
      = slabOut (params x1 x2 x3 x4 x5 x6 x7 x8 x9 x10 x11 x12 x13 x14 x15 x16 x17 x18 x19 x20 x21 x22)
          (fun w' c => x0 (ix4 (0 : Fin 1) hh w' c)) w f := by
  -- the block's pixel rows read at the flattened row of pixel `v`
  have hX : ∀ (v : Fin 128) (c : Fin 256), k0_pay2 (F := Ideal) x0 (ix2 (row hh v) c) = x0 (ix4 (0 : Fin 1) hh v c) :=
    fun v c => Layers.pay2_apply x0 hh v c (row hh v) rfl
  -- theta's features
  have hTH : (fun (w' : Fin 128) (j : Fin 128) =>
        k0_pay5 (F := Ideal) x11 x12 x14 (k0_pay3 x0 x1 x7 x8 x9 x10 x2) (k0_pay4 x13) (ix2 (row hh w') j))
      = fun w' => theta (params x1 x2 x3 x4 x5 x6 x7 x8 x9 x10 x11 x12 x13 x14 x15 x16 x17 x18 x19 x20 x21 x22)
          (fun c => x0 (ix4 (0 : Fin 1) hh w' c)) := by
    funext w' j
    rw [Layers.pay5_apply, Layers.pay4_apply, Layers.pay3_apply x0 x1 x7 x8 x9 x10 x2 hh w' (row hh w') rfl j]
    rfl
  -- phi's features
  have hPH : (fun (v : Fin 128) => layer (mat x4) (vec x19) (vec x20) (vec x21) (vec x22)
        (fun j => relu (k0_pay6 (F := Ideal) (k0_pay2 x0) x3 x15 x16 x17 x18 (ix2 (row hh v) j))))
      = fun v => phi (params x1 x2 x3 x4 x5 x6 x7 x8 x9 x10 x11 x12 x13 x14 x15 x16 x17 x18 x19 x20 x21 x22)
          (fun c => x0 (ix4 (0 : Fin 1) hh v c)) := by
    funext v
    have h1 : (fun j => relu (k0_pay6 (F := Ideal) (k0_pay2 x0) x3 x15 x16 x17 x18 (ix2 (row hh v) j)))
        = layer (mat x3) (vec x15) (vec x16) (vec x17) (vec x18) (fun c => x0 (ix4 (0 : Fin 1) hh v c)) := by
      funext j
      rw [Layers.pay6_apply]
      simp only [hX]
      rfl
    rw [h1]
    rfl
  -- gamma's features
  have hGA : (fun (v : Fin 128) => conv (fun c' => k0_pay2 (F := Ideal) x0 (ix2 (row hh v) c')) (mat x5))
      = fun v => gamma (params x1 x2 x3 x4 x5 x6 x7 x8 x9 x10 x11 x12 x13 x14 x15 x16 x17 x18 x19 x20 x21 x22)
          (fun c => x0 (ix4 (0 : Fin 1) hh v c)) := by
    funext v
    simp only [hX]
    rfl
  rw [Core.pay1_apply]
  unfold slabOut
  refine congrArg (fun a => conv a (mat x6) f) ?_
  funext c
  refine (Core.pay7_apply _ _ x4 x19 x20 x21 x22 _ x5 hh w c (row hh) (fun _ => rfl)).trans ?_
  rw [hTH, hPH, hGA]

end Cert.KernelIdeal.Payload

end
-- ==== Proof.Blocks.lean ====
/-
  From the 64 blocks to the whole result array.

  The grid has one point per image `b` (8 of them) and group of 16 image rows (8 groups); the point's output block is
  rows `16·g … 16·g + 15` of image `b`, all 128 pixels and all 256 channels, and its input image block is the same box of
  the input array; every weight matrix and batch-norm vector is staged whole at every point. The body's value at entry
  `(0, hh, w, f)` of a block is the row function `slabOut` of the 128 pixels of image row `hh` of the block, so the block
  is the restriction of ONE whole-array function: entry `(b, h, w, f)` of the result is `slabOut` of image row `h` of
  image `b`, at pixel `w` and channel `f`. The blocks tile the array (entry `(b, h, ·, ·)` lies in the block of image `b`
  and row group `h / 16`), hence the array after the run is that function everywhere.
-/
import proofs.«149783_j43911745634356_1_alg».proof.Proof.Gen.KernelIdeal.Value
import proofs.«149783_j43911745634356_1_alg».proof.Proof.Spec
import proofs.«149783_j43911745634356_1_alg».proof.Proof.KPayload
import Idealize.ShloMosaic.Lib.ValueLayout

noncomputable section

namespace Cert.KernelIdeal.Blocks

open Cert.KernelIdeal Cert.KernelIdeal.Gen Cert.KernelIdeal.Payload Cert.Attn Idealize.ShloMosaic Idealize.ShloMosaic.TcCoe Idealize.SL.Sem Idealize.ShloMosaic.ValueIdx
open Idealize.ShloMosaic.Pipeline (Dat)

/-- The whole-array function: entry `(b, h, w, f)` is the row function of image row `h` of image `b`. -/
def G (a0 : S8x128x128x256.Idx → EReal) (P : Params) : S8x128x128x256.Idx → EReal :=
  fun i => slabOut P (fun w c => a0 (ix4 (i 0) (i 1) w c)) (i 2) (i 3)

/-- One block entry against the whole-array function. -/
theorem point_eq (x0 : Vec Ideal S1x16x128x256 .f32) (x1 : Vec Ideal S256x128 .f32) (x2 : Vec Ideal S128x128 .f32)
    (x3 : Vec Ideal S256x128 .f32) (x4 : Vec Ideal S128x128 .f32) (x5 : Vec Ideal S256x128 .f32) (x6 : Vec Ideal S128x256 .f32)
    (x7 x8 x9 x10 x11 x12 x13 x14 x15 x16 x17 x18 x19 x20 x21 x22 : Vec Ideal S128 .f32) (a0 : S8x128x128x256.Idx → EReal)
    (y : S1x16x128x256.Idx) (i : S8x128x128x256.Idx)
    (h0 : ∀ (w : Fin 128) (c : Fin 256), x0 (ix4 (0 : Fin 1) (y 1) w c) = a0 (ix4 (i 0) (i 1) w c))
    (h2 : i 2 = y 2) (h3 : i 3 = y 3) :
    k0_pay1 (F := Ideal)
        (k0_pay7 (k0_pay2 x0)
          (k0_pay5 x11 x12 x14 (k0_pay3 x0 x1 x7 x8 x9 x10 x2) (k0_pay4 x13))
          x4 x19 x20 x21 x22
          (k0_pay6 (k0_pay2 x0) x3 x15 x16 x17 x18)
          (FloatOps.ofBits FTy.f32 0#32) x5)
        x6 y = G a0 (params x1 x2 x3 x4 x5 x6 x7 x8 x9 x10 x11 x12 x13 x14 x15 x16 x17 x18 x19 x20 x21 x22) i := by
  obtain ⟨u, hh, w, f, rfl⟩ : ∃ (u : Fin 1) (hh : Fin 16) (w : Fin 128) (f : Fin 256), y = ix4 u hh w f :=
    ⟨y 0, y 1, y 2, y 3, eq_ix4 y⟩
  obtain rfl : u = 0 := Subsingleton.elim _ _
  rw [payload_eq]
  unfold G
  rw [h2, h3]
  exact congrArg (fun xs => slabOut (params x1 x2 x3 x4 x5 x6 x7 x8 x9 x10 x11 x12 x13 x14 x15 x16 x17 x18 x19 x20 x21 x22) xs w f) (funext fun w' => funext fun c => h0 w' c)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the input image window moves with the output window along the batch and
    row-group axes and both stay at block 0 along the pixel and channel axes. -/
theorem idx_facts : ∀ t : Fin cfg0.N, win0_0.index t (0 : Fin 4) = win0_23.index t (0 : Fin 4)
    ∧ win0_0.index t (1 : Fin 4) = win0_23.index t (1 : Fin 4)
    ∧ win0_0.index t (2 : Fin 4) = 0
    ∧ win0_0.index t (3 : Fin 4) = 0
    ∧ win0_23.index t (2 : Fin 4) = 0
    ∧ win0_23.index t (3 : Fin 4) = 0
    ∧ win0_23.index t (0 : Fin 4) < 8
    ∧ win0_23.index t (1 : Fin 4) < 8 :=
  (by decide +kernel : ∀ t : Fin grid0.N, _)

theorem idx_zero1 : ∀ t : Fin cfg0.N, win0_1.index t (0 : Fin 2) = 0 ∧ win0_1.index t (1 : Fin 2) = 0 :=
  (by decide +kernel : ∀ t : Fin grid0.N, _)

/-- Window 1 stages its whole array at every point. -/
theorem blk1 (c : Dev nD) (t : Fin cfg0.N) : (iblk m c 1 t : S256x128.Idx → EReal) = V m c main_arg1 := by
  obtain ⟨e0, e1⟩ := idx_zero1 t
  funext y
  show V m c main_arg1 (((cfg0.win 1).blk t).view.emb y) = V m c main_arg1 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

theorem idx_zero2 : ∀ t : Fin cfg0.N, win0_2.index t (0 : Fin 2) = 0 ∧ win0_2.index t (1 : Fin 2) = 0 :=
  (by decide +kernel : ∀ t : Fin grid0.N, _)

/-- Window 2 stages its whole array at every point. -/
theorem blk2 (c : Dev nD) (t : Fin cfg0.N) : (iblk m c 2 t : S128x128.Idx → EReal) = V m c main_arg2 := by
  obtain ⟨e0, e1⟩ := idx_zero2 t
  funext y
  show V m c main_arg2 (((cfg0.win 2).blk t).view.emb y) = V m c main_arg2 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem idx_zero3 : ∀ t : Fin cfg0.N, win0_3.index t (0 : Fin 2) = 0 ∧ win0_3.index t (1 : Fin 2) = 0 :=
  (by decide +kernel : ∀ t : Fin grid0.N, _)

/-- Window 3 stages its whole array at every point. -/
theorem blk3 (c : Dev nD) (t : Fin cfg0.N) : (iblk m c 3 t : S256x128.Idx → EReal) = V m c main_arg3 := by
  obtain ⟨e0, e1⟩ := idx_zero3 t
  funext y
  show V m c main_arg3 (((cfg0.win 3).blk t).view.emb y) = V m c main_arg3 y
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 128 + 1 * (y 1).val = (y 1).val; omega

theorem idx_zero4 : ∀ t : Fin cfg0.N, win0_4.index t (0 : Fin 2) = 0 ∧ win0_4.index t (1 : Fin 2) = 0 :=
  (by decide +kernel : ∀ t : Fin grid0.N, _)

/-- Window 4 stages its whole array at every point. -/
theorem blk4 (c : Dev nD) (t : Fin cfg0.N) : (iblk m c 4 t : S128x128.Idx → EReal) = V m c main_arg4 := by
  obtain ⟨e0, e1⟩ := idx_zero4 t
  funext y
  show V m c main_arg4 (((cfg0.win 4).blk t).view.emb y) = V m c main_arg4 y
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

theorem idx_zero5 : ∀ t : Fin cfg0.N, win0_5.index t (0 : Fin 2) = 0 ∧ win0_5.index t (1 : Fin 2) = 0 :=
  (by decide +kernel : ∀ t : Fin grid0.N, _)

/-- Window 5 stages its whole array at every point. -/
theorem blk5 (c : Dev nD) (t : Fin cfg0.N) : (iblk m c 5 t : S256x128.Idx → EReal) = V m c main_arg5 := by
  obtain ⟨e0, e1⟩ := idx_zero5 t
  funext y
  show V m c main_arg5 (((cfg0.win 5).blk t).view.emb y) = V m c main_arg5 y
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 128 + 1 * (y 1).val = (y 1).val; omega

theorem idx_zero6 : ∀ t : Fin cfg0.N, win0_6.index t (0 : Fin 2) = 0 ∧ win0_6.index t (1 : Fin 2) = 0 :=
  (by decide +kernel : ∀ t : Fin grid0.N, _)

/-- Window 6 stages its whole array at every point. -/
theorem blk6 (c : Dev nD) (t : Fin cfg0.N) : (iblk m c 6 t : S128x256.Idx → EReal) = V m c main_arg6 := by
  obtain ⟨e0, e1⟩ := idx_zero6 t
  funext y
  show V m c main_arg6 (((cfg0.win 6).blk t).view.emb y) = V m c main_arg6 y
  refine congrArg _ (funext fun a => Fin.ext ?_)
  match a with
  | ⟨0, _⟩ => show win0_6.index t (0 : Fin 2) * 128 + 1 * (y 0).val = (y 0).val; omega
  | ⟨1, _⟩ => show win0_6.index t (1 : Fin 2) * 256 + 1 * (y 1).val = (y 1).val; omega

theorem idx_zero7 : ∀ t : Fin cfg0.N, win0_7.index t (0 : Fin 1) = 0 :=
  (by decide +kernel : ∀ t : Fin grid0.N, _)

/-- Window 7 stages its whole array at every point. -/
theorem blk7 (c : Dev nD) (t : Fin cfg0.N) : (iblk m c 7 t : S128.Idx → EReal) = V m c main_arg7 := by
  have e0 := idx_zero7 t
  funext y
  show V m c main_arg7 (((cfg0.win 7).blk t).view.emb y) = V m c main_arg7 y
  refine congrArg _ (funext fun a => Fin.ext ?_)
  match a with
  | ⟨0, _⟩ => show win0_7.index t (0 : Fin 1) * 128 + 1 * (y 0).val = (y 0).val; omega

theorem idx_zero8 : ∀ t : Fin cfg0.N, win0_8.index t (0 : Fin 1) = 0 :=
  (by decide +kernel : ∀ t : Fin grid0.N, _)

/-- Window 8 stages its whole array at every point. -/
theorem blk8 (c : Dev nD) (t : Fin cfg0.N) : (iblk m c 8 t : S128.Idx → EReal) = V m c main_arg8 := by
  have e0 := idx_zero8 t
  funext y
  show V m c main_arg8 (((cfg0.win 8).blk t).view.emb y) = V m c main_arg8 y
  refine congrArg _ (funext fun a => Fin.ext ?_)
  match a with
  | ⟨0, _⟩ => show win0_8.index t (0 : Fin 1) * 128 + 1 * (y 0).val = (y 0).val; omega

theorem idx_zero9 : ∀ t : Fin cfg0.N, win0_9.index t (0 : Fin 1) = 0 :=
  (by decide +kernel : ∀ t : Fin grid0.N, _)

/-- Window 9 stages its whole array at every point. -/
theorem blk9 (c : Dev nD) (t : Fin cfg0.N) : (iblk m c 9 t : S128.Idx → EReal) = V m c main_arg9 := by
  have e0 := idx_zero9 t
  funext y
  show V m c main_arg9 (((cfg0.win 9).blk t).view.emb y) = V m c main_arg9 y
  refine congrArg _ (funext fun a => Fin.ext ?_)
  match a with
  | ⟨0, _⟩ => show win0_9.index t (0 : Fin 1) * 128 + 1 * (y 0).val = (y 0).val; omega

theorem idx_zero10 : ∀ t : Fin cfg0.N, win0_10.index t (0 : Fin 1) = 0 :=
  (by decide +kernel : ∀ t : Fin grid0.N, _)

/-- Window 10 stages its whole array at every point. -/
theorem blk10 (c : Dev nD) (t : Fin cfg0.N) : (iblk m c 10 t : S128.Idx → EReal) = V m c main_arg10 := by
  have e0 := idx_zero10 t
  funext y
  show V m c main_arg10 (((cfg0.win 10).blk t).view.emb y) = V m c main_arg10 y
  refine congrArg _ (funext fun a => Fin.ext ?_)
  match a with
  | ⟨0, _⟩ => show win0_10.index t (0 : Fin 1) * 128 + 1 * (y 0).val = (y 0).val; omega

theorem idx_zero11 : ∀ t : Fin cfg0.N, win0_11.index t (0 : Fin 1) = 0 :=
  (by decide +kernel : ∀ t : Fin grid0.N, _)

/-- Window 11 stages its whole array at every point. -/
theorem blk11 (c : Dev nD) (t : Fin cfg0.N) : (iblk m c 11 t : S128.Idx → EReal) = V m c main_arg11 := by
  have e0 := idx_zero11 t
  funext y
  show V m c main_arg11 (((cfg0.win 11).blk t).view.emb y) = V m c main_arg11 y
  refine congrArg _ (funext fun a => Fin.ext ?_)
  match a with
  | ⟨0, _⟩ => show win0_11.index t (0 : Fin 1) * 128 + 1 * (y 0).val = (y 0).val; omega

theorem idx_zero12 : ∀ t : Fin cfg0.N, win0_12.index t (0 : Fin 1) = 0 :=
  (by decide +kernel : ∀ t : Fin grid0.N, _)

/-- Window 12 stages its whole array at every point. -/
theorem blk12 (c : Dev nD) (t : Fin cfg0.N) : (iblk m c 12 t : S128.Idx → EReal) = V m c main_arg12 := by
  have e0 := idx_zero12 t
  funext y
  show V m c main_arg12 (((cfg0.win 12).blk t).view.emb y) = V m c main_arg12 y
  refine congrArg _ (funext fun a => Fin.ext ?_)
  match a with
  | ⟨0, _⟩ => show win0_12.index t (0 : Fin 1) * 128 + 1 * (y 0).val = (y 0).val; omega

theorem idx_zero13 : ∀ t : Fin cfg0.N, win0_13.index t (0 : Fin 1) = 0 :=
  (by decide +kernel : ∀ t : Fin grid0.N, _)

/-- Window 13 stages its whole array at every point. -/
theorem blk13 (c : Dev nD) (t : Fin cfg0.N) : (iblk m c 13 t : S128.Idx → EReal) = V m c main_arg13 := by
  have e0 := idx_zero13 t
  funext y
  show V m c main_arg13 (((cfg0.win 13).blk t).view.emb y) = V m c main_arg13 y
  refine congrArg _ (funext fun a => Fin.ext ?_)
  match a with
  | ⟨0, _⟩ => show win0_13.index t (0 : Fin 1) * 128 + 1 * (y 0).val = (y 0).val; omega

theorem idx_zero14 : ∀ t : Fin cfg0.N, win0_14.index t (0 : Fin 1) = 0 :=
  (by decide +kernel : ∀ t : Fin grid0.N, _)

/-- Window 14 stages its whole array at every point. -/
theorem blk14 (c : Dev nD) (t : Fin cfg0.N) : (iblk m c 14 t : S128.Idx → EReal) = V m c main_arg14 := by
  have e0 := idx_zero14 t
  funext y
  show V m c main_arg14 (((cfg0.win 14).blk t).view.emb y) = V m c main_arg14 y
  refine congrArg _ (funext fun a => Fin.ext ?_)
  match a with
  | ⟨0, _⟩ => show win0_14.index t (0 : Fin 1) * 128 + 1 * (y 0).val = (y 0).val; omega

theorem idx_zero15 : ∀ t : Fin cfg0.N, win0_15.index t (0 : Fin 1) = 0 :=
  (by decide +kernel : ∀ t : Fin grid0.N, _)

/-- Window 15 stages its whole array at every point. -/
theorem blk15 (c : Dev nD) (t : Fin cfg0.N) : (iblk m c 15 t : S128.Idx → EReal) = V m c main_arg15 := by
  have e0 := idx_zero15 t
  funext y
  show V m c main_arg15 (((cfg0.win 15).blk t).view.emb y) = V m c main_arg15 y
  refine congrArg _ (funext fun a => Fin.ext ?_)
  match a with
  | ⟨0, _⟩ => show win0_15.index t (0 : Fin 1) * 128 + 1 * (y 0).val = (y 0).val; omega

theorem idx_zero16 : ∀ t : Fin cfg0.N, win0_16.index t (0 : Fin 1) = 0 :=
  (by decide +kernel : ∀ t : Fin grid0.N, _)

/-- Window 16 stages its whole array at every point. -/
theorem blk16 (c : Dev nD) (t : Fin cfg0.N) : (iblk m c 16 t : S128.Idx → EReal) = V m c main_arg16 := by
  have e0 := idx_zero16 t
  funext y
  show V m c main_arg16 (((cfg0.win 16).blk t).view.emb y) = V m c main_arg16 y
  refine congrArg _ (funext fun a => Fin.ext ?_)
  match a with
  | ⟨0, _⟩ => show win0_16.index t (0 : Fin 1) * 128 + 1 * (y 0).val = (y 0).val; omega

theorem idx_zero17 : ∀ t : Fin cfg0.N, win0_17.index t (0 : Fin 1) = 0 :=
  (by decide +kernel : ∀ t : Fin grid0.N, _)

/-- Window 17 stages its whole array at every point. -/
theorem blk17 (c : Dev nD) (t : Fin cfg0.N) : (iblk m c 17 t : S128.Idx → EReal) = V m c main_arg17 := by
  have e0 := idx_zero17 t
  funext y
  show V m c main_arg17 (((cfg0.win 17).blk t).view.emb y) = V m c main_arg17 y
  refine congrArg _ (funext fun a => Fin.ext ?_)
  match a with
  | ⟨0, _⟩ => show win0_17.index t (0 : Fin 1) * 128 + 1 * (y 0).val = (y 0).val; omega

theorem idx_zero18 : ∀ t : Fin cfg0.N, win0_18.index t (0 : Fin 1) = 0 :=
  (by decide +kernel : ∀ t : Fin grid0.N, _)

/-- Window 18 stages its whole array at every point. -/
theorem blk18 (c : Dev nD) (t : Fin cfg0.N) : (iblk m c 18 t : S128.Idx → EReal) = V m c main_arg18 := by
  have e0 := idx_zero18 t
  funext y
  show V m c main_arg18 (((cfg0.win 18).blk t).view.emb y) = V m c main_arg18 y
  refine congrArg _ (funext fun a => Fin.ext ?_)
  match a with
  | ⟨0, _⟩ => show win0_18.index t (0 : Fin 1) * 128 + 1 * (y 0).val = (y 0).val; omega

theorem idx_zero19 : ∀ t : Fin cfg0.N, win0_19.index t (0 : Fin 1) = 0 :=
  (by decide +kernel : ∀ t : Fin grid0.N, _)

/-- Window 19 stages its whole array at every point. -/
theorem blk19 (c : Dev nD) (t : Fin cfg0.N) : (iblk m c 19 t : S128.Idx → EReal) = V m c main_arg19 := by
  have e0 := idx_zero19 t
  funext y
  show V m c main_arg19 (((cfg0.win 19).blk t).view.emb y) = V m c main_arg19 y
  refine congrArg _ (funext fun a => Fin.ext ?_)
  match a with
  | ⟨0, _⟩ => show win0_19.index t (0 : Fin 1) * 128 + 1 * (y 0).val = (y 0).val; omega

theorem idx_zero20 : ∀ t : Fin cfg0.N, win0_20.index t (0 : Fin 1) = 0 :=
  (by decide +kernel : ∀ t : Fin grid0.N, _)

/-- Window 20 stages its whole array at every point. -/
theorem blk20 (c : Dev nD) (t : Fin cfg0.N) : (iblk m c 20 t : S128.Idx → EReal) = V m c main_arg20 := by
  have e0 := idx_zero20 t
  funext y
  show V m c main_arg20 (((cfg0.win 20).blk t).view.emb y) = V m c main_arg20 y
  refine congrArg _ (funext fun a => Fin.ext ?_)
  match a with
  | ⟨0, _⟩ => show win0_20.index t (0 : Fin 1) * 128 + 1 * (y 0).val = (y 0).val; omega

theorem idx_zero21 : ∀ t : Fin cfg0.N, win0_21.index t (0 : Fin 1) = 0 :=
  (by decide +kernel : ∀ t : Fin grid0.N, _)

/-- Window 21 stages its whole array at every point. -/
theorem blk21 (c : Dev nD) (t : Fin cfg0.N) : (iblk m c 21 t : S128.Idx → EReal) = V m c main_arg21 := by
  have e0 := idx_zero21 t
  funext y
  show V m c main_arg21 (((cfg0.win 21).blk t).view.emb y) = V m c main_arg21 y
  refine congrArg _ (funext fun a => Fin.ext ?_)
  match a with
  | ⟨0, _⟩ => show win0_21.index t (0 : Fin 1) * 128 + 1 * (y 0).val = (y 0).val; omega

theorem idx_zero22 : ∀ t : Fin cfg0.N, win0_22.index t (0 : Fin 1) = 0 :=
  (by decide +kernel : ∀ t : Fin grid0.N, _)

/-- Window 22 stages its whole array at every point. -/
theorem blk22 (c : Dev nD) (t : Fin cfg0.N) : (iblk m c 22 t : S128.Idx → EReal) = V m c main_arg22 := by
  have e0 := idx_zero22 t
  funext y
  show V m c main_arg22 (((cfg0.win 22).blk t).view.emb y) = V m c main_arg22 y
  refine congrArg _ (funext fun a => Fin.ext ?_)
  match a with
  | ⟨0, _⟩ => show win0_22.index t (0 : Fin 1) * 128 + 1 * (y 0).val = (y 0).val; omega

/-- The whole-array function of the argument arrays as the region finds them. -/
def Garr (c : Dev nD) : S8x128x128x256.Idx → EReal :=
  G (V m c main_arg0) (params (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22))

/-- What grid point `t` writes back is block `t` of the whole-array function. -/
theorem flushed_eq (c : Dev nD) (t : Fin cfg0.N) :
    (dats m 0 c).flushed 23 t = ((cfg0.win 23).blk t).view.read (Elt Ideal) (Garr m c) := by
  rw [Value.flushed23]
  unfold out0_23
  rw [View.canon_unit_zero hz4]
  simp only [View.ld_unit_zero (S := S1x16x128x256) hz4, View.ld_unit_zero (S := S256x128) hz2, View.ld_unit_zero (S := S128x128) hz2,
    View.ld_unit_zero (S := S128x256) hz2, View.ld_unit_zero (S := S128) hz1]
  obtain ⟨e0, e1, e2, e3, e4, e5, e6, e7⟩ := idx_facts t
  funext y
  have hy0 : (y 0).val = 0 := by have h1 : (y 0).val < 1 := (y 0).isLt; omega
  refine (point_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (V m c main_arg0) y (((cfg0.win 23).blk t).view.emb y) ?_ ?_ ?_).trans ?_
  · intro w c'
    show V m c main_arg0 (((cfg0.win 0).blk t).view.emb (ix4 (0 : Fin 1) (y 1) w c')) = V m c main_arg0 _
    refine congrArg _ (funext fun a => Fin.ext ?_)
    match a with
    | ⟨0, _⟩ => show win0_0.index t (0 : Fin 4) * 1 + 1 * 0 = win0_23.index t (0 : Fin 4) * 1 + 1 * (y 0).val; omega
    | ⟨1, _⟩ => show win0_0.index t (1 : Fin 4) * 16 + 1 * (y 1).val = win0_23.index t (1 : Fin 4) * 16 + 1 * (y 1).val; omega
    | ⟨2, _⟩ => show win0_0.index t (2 : Fin 4) * 128 + 1 * w.val = w.val; omega
    | ⟨3, _⟩ => show win0_0.index t (3 : Fin 4) * 256 + 1 * c'.val = c'.val; omega
  · refine Fin.ext ?_
    show win0_23.index t (2 : Fin 4) * 128 + 1 * (y 2).val = (y 2).val; omega
  · refine Fin.ext ?_
    show win0_23.index t (3 : Fin 4) * 256 + 1 * (y 3).val = (y 3).val; omega
  · show G (V m c main_arg0) (params (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t)) _ = Garr m c _
    unfold Garr
    rw [blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t, blk17 m c t, blk18 m c t, blk19 m c t, blk20 m c t, blk21 m c t, blk22 m c t]

/-- An index of the array is in point `t`'s block iff each coordinate is in the block's range on its axis. -/
theorem mem_blk (t : Fin cfg0.N) (i : S8x128x128x256.Idx) :
    i ∈ ((cfg0.win 23).blk t).view.set ↔ ∀ a : Fin 4, win0_23.index t a * S1x16x128x256.size a ≤ (i a).val ∧ (i a).val < win0_23.index t a * S1x16x128x256.size a + S1x16x128x256.size a := by
  show i ∈ ((View.whole main_v0).slice (win0_23.rect t)).set ↔ _
  rw [View.set_slice_whole, Rect.mem_set_unit]
  exact Iff.rfl

/-- Every (image, row group) pair is some grid point's block. -/
theorem idx_onto : ∀ (q0 : Fin 8) (q1 : Fin 8), ∃ t : Fin cfg0.N, win0_23.index t = ![q0.val, q1.val, 0, 0] :=
  (by decide +kernel : ∀ (q0 : Fin 8) (q1 : Fin 8), ∃ t : Fin grid0.N, win0_23.index t = ![q0.val, q1.val, 0, 0])

/-- The 64 blocks tile the array: entry (b, h, w, f) lies in the block of image b and row group h / 16. -/
theorem cover (i : S8x128x128x256.Idx) :
    ∃ t : Fin cfg0.N, (cfg0.win 23).flush t = true ∧ i ∈ ((cfg0.win 23).blk t).view.set := by
  have hi0 : (i 0).val < 8 := (i 0).isLt
  have hi1 : (i 1).val < 128 := (i 1).isLt
  have hi2 : (i 2).val < 128 := (i 2).isLt
  have hi3 : (i 3).val < 256 := (i 3).isLt
  obtain ⟨t, ht⟩ := idx_onto ⟨(i 0).val, hi0⟩ ⟨(i 1).val / 16, by omega⟩
  have q0 : win0_23.index t (0 : Fin 4) = (i 0).val := congrFun ht 0
  have q1 : win0_23.index t (1 : Fin 4) = (i 1).val / 16 := congrFun ht 1
  have q2 : win0_23.index t (2 : Fin 4) = 0 := congrFun ht 2
  have q3 : win0_23.index t (3 : Fin 4) = 0 := congrFun ht 3
  refine ⟨t, flush0_23 t, ?_⟩
  rw [mem_blk]
  intro a
  match a with
  | ⟨0, _⟩ => show win0_23.index t (0 : Fin 4) * 1 ≤ (i 0).val ∧ (i 0).val < win0_23.index t (0 : Fin 4) * 1 + 1; omega
  | ⟨1, _⟩ => show win0_23.index t (1 : Fin 4) * 16 ≤ (i 1).val ∧ (i 1).val < win0_23.index t (1 : Fin 4) * 16 + 16; omega
  | ⟨2, _⟩ => show win0_23.index t (2 : Fin 4) * 128 ≤ (i 2).val ∧ (i 2).val < win0_23.index t (2 : Fin 4) * 128 + 128; omega
  | ⟨3, _⟩ => show win0_23.index t (3 : Fin 4) * 256 ≤ (i 3).val ∧ (i 3).val < win0_23.index t (3 : Fin 4) * 256 + 256; omega

/-- The output array after the run is the whole-array function of the arguments. -/
theorem final (c : Dev nD) : (dats m 0 c).arrAt 23 cfg0.N = Garr m c :=
  (dats m 0 c).arrAt_eq_of_cover 23 (Garr m c) (fun t _ => flushed_eq m c t) cover

/-- The kernel's run with its result array named as the whole-array function, the arguments unchanged. -/
theorem run : θ_run defs (onTc (τ := τ) (main (F := Ideal))) ⟨m, fun _ => 0, ρ⟩ fun r => ∀ c : Dev nD,
      r.2.mem ((c : Thread nD τ).loc main_v0) = Garr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨(h c).1.trans (final m c), (h c).2⟩) (Value.run_blocks m ρ)

end Cert.KernelIdeal.Blocks

end
-- ==== Proof.RefFeatures.lean ====
/-
  The reference program's three feature maps, read at one entry.

  The reference computes, for the whole [8,128,128,256] image stack at once, the arrays theta, phi and gamma of shape
  [8,128,128,128]: theta and phi by two layers each (a contraction of the channel axis with a weight matrix, an
  inference batch norm whose four per-feature vectors are spread over the array, a maximum with the zero array), gamma
  by one contraction. Every one of these operations produces entry (b, h, w, j) from the entries (b, h, w, ·) of its
  array operand and the entries j (or (·, j)) of its learnt operands. Read at that entry, operation by operation, the
  arrays are therefore the pixel functions of the specification applied to the pixel (b, h, w): its 256 channels
  c ↦ x (b, h, w, c).

  Per layer: the contraction at an entry is the sum over the contracted axis; a learnt vector spread over the array is
  the vector at j; the spread reciprocal square root of variance plus epsilon is that of the variance at j; the layer
  is their combination g · (y − m) · (v + ε)^(−1/2) + s, capped below by zero. The second layer's contraction reads the
  first layer at (b, h, w, k) for every k, which is the first layer's pixel function at k.
-/
import proofs.«149783_j43911745634356_1_alg».proof.Proof.Gen.ReferenceIdeal.Read
import proofs.«149783_j43911745634356_1_alg».proof.Proof.Spec
import Idealize.ShloMosaic.Lib.ValueLayout
import Idealize.ShloMosaic.Lib.Pipeline.Value
import Idealize.ShloMosaic.PureOps.Ideal.Laws

noncomputable section

open scoped BigOperators

namespace Cert.ReferenceIdeal.Features

open Cert.ReferenceIdeal Cert.ReferenceIdeal.Gen Cert.ReferenceIdeal.Read Cert.Attn Idealize.ShloMosaic Idealize.ShloMosaic.ValueIdx

variable (x0 : (⟨S8x128x128x256, .f32⟩ : BufTy).Contents (Elt Ideal)) (x1 : (⟨S256x128, .f32⟩ : BufTy).Contents (Elt Ideal)) (x2 : (⟨S128x128, .f32⟩ : BufTy).Contents (Elt Ideal)) (x3 : (⟨S256x128, .f32⟩ : BufTy).Contents (Elt Ideal)) (x4 : (⟨S128x128, .f32⟩ : BufTy).Contents (Elt Ideal)) (x5 : (⟨S256x128, .f32⟩ : BufTy).Contents (Elt Ideal)) (x6 : (⟨S128x256, .f32⟩ : BufTy).Contents (Elt Ideal)) (x7 x8 x9 x10 x11 x12 x13 x14 x15 x16 x17 x18 x19 x20 x21 x22 : (⟨S128, .f32⟩ : BufTy).Contents (Elt Ideal))

/-! ## Phi's first layer -/

/-- The 1×1 convolution of phi's first layer at an entry: the sum over the 256 channels of the pixel. -/
theorem phi1_conv (b : Fin 8) (h w : Fin 128) (j : Fin 128) :
    val_main_v0 (F := Ideal) x0 x3 (ix4 b h w j) = conv (fun c => x0 (ix4 b h w c)) (mat (a := 256) (b := 128) x3) j := by
  refine (val_main_v0_apply _ _ _).trans ?_
  show (∑ k : Fin 256, _) = ∑ c : Fin 256, x0 (ix4 b h w c) * x3 (ix2 c j)
  refine Finset.sum_congr rfl fun k _ => ?_
  have el : lidx_main_v0 (ix4 b h w j) k = ix4 b h w k := (funext fun a => by match a with | ⟨0, _⟩ => rfl | ⟨1, _⟩ => rfl | ⟨2, _⟩ => rfl | ⟨3, _⟩ => rfl)
  have er : ridx_main_v0 (ix4 b h w j) k = ix2 k j := (funext fun a => by match a with | ⟨0, _⟩ => rfl | ⟨1, _⟩ => rfl)
  rw [el, er]

/-- The batch norm's mean of phi's first layer, spread over the array, at an entry. -/
theorem phi1_mean (b : Fin 8) (h w : Fin 128) (j : Fin 128) :
    val_main_v2 (F := Ideal) x17 (ix4 b h w j) = x17 (ix1 j) := by
  refine (val_main_v2_apply _ _).trans ?_
  refine (val_main_v1_apply _ _).trans ?_
  exact congrArg x17 (funext fun a => by match a with | ⟨0, _⟩ => rfl)

/-- The batch norm's scale of phi's first layer, spread over the array, at an entry. -/
theorem phi1_scale (b : Fin 8) (h w : Fin 128) (j : Fin 128) :
    val_main_v5 (F := Ideal) x15 (ix4 b h w j) = x15 (ix1 j) := by
  refine (val_main_v5_apply _ _).trans ?_
  refine (val_main_v4_apply _ _).trans ?_
  exact congrArg x15 (funext fun a => by match a with | ⟨0, _⟩ => rfl)

/-- The batch norm's shift of phi's first layer, spread over the array, at an entry. -/
theorem phi1_shift (b : Fin 8) (h w : Fin 128) (j : Fin 128) :
    val_main_v14 (F := Ideal) x16 (ix4 b h w j) = x16 (ix1 j) := by
  refine (val_main_v14_apply _ _).trans ?_
  refine (val_main_v13_apply _ _).trans ?_
  exact congrArg x16 (funext fun a => by match a with | ⟨0, _⟩ => rfl)

/-- The reciprocal square root of variance plus epsilon of phi's first layer, spread over the array, at an entry. -/
theorem phi1_rstd (b : Fin 8) (h w : Fin 128) (j : Fin 128) :
    val_main_v11 (F := Ideal) x18 (ix4 b h w j) = Ideal.rsqrt (x18 (ix1 j) + eps) := by
  refine (val_main_v11_apply _ _).trans ?_
  refine (val_main_v10_apply _ _).trans ?_
  have e : idx_main_v10 (idx_main_v11 (ix4 b h w j)) = ix1 j := (funext fun a => by match a with | ⟨0, _⟩ => rfl)
  rw [e]
  show Ideal.rsqrt (x18 (ix1 j) + val_main_v7 (F := Ideal) (ix1 j)) = _
  rw [val_main_v7_apply]
  rfl

/-- The zero array the ReLU of phi's first layer compares with, at an entry. -/
theorem phi1_zero (b : Fin 8) (h w : Fin 128) (j : Fin 128) :
    val_main_call0_v0 (F := Ideal) (ix4 b h w j) = zero := by
  refine (val_main_call0_v0_apply _).trans ?_
  rfl

/-- Phi's first layer at an entry: convolution, batch norm, ReLU. -/
theorem phi1_layer (b : Fin 8) (h w : Fin 128) (j : Fin 128) :
    val_main_v16 (F := Ideal) x0 x3 x15 x16 x17 x18 (ix4 b h w j) = layer (mat (a := 256) (b := 128) x3) (vec (a := 128) x15) (vec (a := 128) x16) (vec (a := 128) x17) (vec (a := 128) x18) (fun c => x0 (ix4 b h w c)) j := by
  show max (val_main_v5 (F := Ideal) x15 (ix4 b h w j) * (val_main_v0 (F := Ideal) x0 x3 (ix4 b h w j) - val_main_v2 (F := Ideal) x17 (ix4 b h w j))
      * val_main_v11 (F := Ideal) x18 (ix4 b h w j) + val_main_v14 (F := Ideal) x16 (ix4 b h w j)) (val_main_call0_v0 (F := Ideal) (ix4 b h w j)) = _
  rw [phi1_scale, phi1_conv, phi1_mean, phi1_rstd, phi1_shift, phi1_zero]
  rfl

/-! ## Phi's second layer -/

/-- The batch norm's mean of phi's second layer, spread over the array, at an entry. -/
theorem phi2_mean (b : Fin 8) (h w : Fin 128) (j : Fin 128) :
    val_main_v19 (F := Ideal) x21 (ix4 b h w j) = x21 (ix1 j) := by
  refine (val_main_v19_apply _ _).trans ?_
  refine (val_main_v18_apply _ _).trans ?_
  exact congrArg x21 (funext fun a => by match a with | ⟨0, _⟩ => rfl)

/-- The batch norm's scale of phi's second layer, spread over the array, at an entry. -/
theorem phi2_scale (b : Fin 8) (h w : Fin 128) (j : Fin 128) :
    val_main_v22 (F := Ideal) x19 (ix4 b h w j) = x19 (ix1 j) := by
  refine (val_main_v22_apply _ _).trans ?_
  refine (val_main_v21_apply _ _).trans ?_
  exact congrArg x19 (funext fun a => by match a with | ⟨0, _⟩ => rfl)

/-- The batch norm's shift of phi's second layer, spread over the array, at an entry. -/
theorem phi2_shift (b : Fin 8) (h w : Fin 128) (j : Fin 128) :
    val_main_v31 (F := Ideal) x20 (ix4 b h w j) = x20 (ix1 j) := by
  refine (val_main_v31_apply _ _).trans ?_
  refine (val_main_v30_apply _ _).trans ?_
  exact congrArg x20 (funext fun a => by match a with | ⟨0, _⟩ => rfl)

/-- The reciprocal square root of variance plus epsilon of phi's second layer, spread over the array, at an entry. -/
theorem phi2_rstd (b : Fin 8) (h w : Fin 128) (j : Fin 128) :
    val_main_v28 (F := Ideal) x22 (ix4 b h w j) = Ideal.rsqrt (x22 (ix1 j) + eps) := by
  refine (val_main_v28_apply _ _).trans ?_
  refine (val_main_v27_apply _ _).trans ?_
  have e : idx_main_v27 (idx_main_v28 (ix4 b h w j)) = ix1 j := (funext fun a => by match a with | ⟨0, _⟩ => rfl)
  rw [e]
  show Ideal.rsqrt (x22 (ix1 j) + val_main_v24 (F := Ideal) (ix1 j)) = _
  rw [val_main_v24_apply]
  rfl

/-- The zero array the ReLU of phi's second layer compares with, at an entry. -/
theorem phi2_zero (b : Fin 8) (h w : Fin 128) (j : Fin 128) :
    val_main_call1_v0 (F := Ideal) (ix4 b h w j) = zero := by
  refine (val_main_call1_v0_apply _).trans ?_
  rfl

/-- The 1×1 convolution of phi's second layer at an entry: the sum over the 128 features the first layer gives the pixel. -/
theorem phi2_conv (b : Fin 8) (h w : Fin 128) (j : Fin 128) :
    val_main_v17 (F := Ideal) x0 x3 x4 x15 x16 x17 x18 (ix4 b h w j) = conv (layer (mat (a := 256) (b := 128) x3) (vec (a := 128) x15) (vec (a := 128) x16) (vec (a := 128) x17) (vec (a := 128) x18) (fun c => x0 (ix4 b h w c))) (mat (a := 128) (b := 128) x4) j := by
  refine (val_main_v17_apply _ _ _ _ _ _ _ _).trans ?_
  show (∑ k : Fin 128, _) = ∑ c : Fin 128, (layer (mat (a := 256) (b := 128) x3) (vec (a := 128) x15) (vec (a := 128) x16) (vec (a := 128) x17) (vec (a := 128) x18) (fun c => x0 (ix4 b h w c))) c * x4 (ix2 c j)
  refine Finset.sum_congr rfl fun k _ => ?_
  have el : lidx_main_v17 (ix4 b h w j) k = ix4 b h w k := (funext fun a => by match a with | ⟨0, _⟩ => rfl | ⟨1, _⟩ => rfl | ⟨2, _⟩ => rfl | ⟨3, _⟩ => rfl)
  have er : ridx_main_v17 (ix4 b h w j) k = ix2 k j := (funext fun a => by match a with | ⟨0, _⟩ => rfl | ⟨1, _⟩ => rfl)
  rw [el, er, phi1_layer]

/-- Phi's second layer at an entry: convolution, batch norm, ReLU. -/
theorem phi2_layer (b : Fin 8) (h w : Fin 128) (j : Fin 128) :
    val_main_v33 (F := Ideal) x0 x3 x4 x15 x16 x17 x18 x19 x20 x21 x22 (ix4 b h w j) = layer (mat (a := 128) (b := 128) x4) (vec (a := 128) x19) (vec (a := 128) x20) (vec (a := 128) x21) (vec (a := 128) x22) (layer (mat (a := 256) (b := 128) x3) (vec (a := 128) x15) (vec (a := 128) x16) (vec (a := 128) x17) (vec (a := 128) x18) (fun c => x0 (ix4 b h w c))) j := by
  show max (val_main_v22 (F := Ideal) x19 (ix4 b h w j) * (val_main_v17 (F := Ideal) x0 x3 x4 x15 x16 x17 x18 (ix4 b h w j) - val_main_v19 (F := Ideal) x21 (ix4 b h w j))
      * val_main_v28 (F := Ideal) x22 (ix4 b h w j) + val_main_v31 (F := Ideal) x20 (ix4 b h w j)) (val_main_call1_v0 (F := Ideal) (ix4 b h w j)) = _
  rw [phi2_scale, phi2_conv, phi2_mean, phi2_rstd, phi2_shift, phi2_zero]
  rfl

/-! ## Theta's first layer -/

/-- The 1×1 convolution of theta's first layer at an entry: the sum over the 256 channels of the pixel. -/
theorem theta1_conv (b : Fin 8) (h w : Fin 128) (j : Fin 128) :
    val_main_v34 (F := Ideal) x0 x1 (ix4 b h w j) = conv (fun c => x0 (ix4 b h w c)) (mat (a := 256) (b := 128) x1) j := by
  refine (val_main_v34_apply _ _ _).trans ?_
  show (∑ k : Fin 256, _) = ∑ c : Fin 256, x0 (ix4 b h w c) * x1 (ix2 c j)
  refine Finset.sum_congr rfl fun k _ => ?_
  have el : lidx_main_v34 (ix4 b h w j) k = ix4 b h w k := (funext fun a => by match a with | ⟨0, _⟩ => rfl | ⟨1, _⟩ => rfl | ⟨2, _⟩ => rfl | ⟨3, _⟩ => rfl)
  have er : ridx_main_v34 (ix4 b h w j) k = ix2 k j := (funext fun a => by match a with | ⟨0, _⟩ => rfl | ⟨1, _⟩ => rfl)
  rw [el, er]

/-- The batch norm's mean of theta's first layer, spread over the array, at an entry. -/
theorem theta1_mean (b : Fin 8) (h w : Fin 128) (j : Fin 128) :
    val_main_v36 (F := Ideal) x9 (ix4 b h w j) = x9 (ix1 j) := by
  refine (val_main_v36_apply _ _).trans ?_
  refine (val_main_v35_apply _ _).trans ?_
  exact congrArg x9 (funext fun a => by match a with | ⟨0, _⟩ => rfl)

/-- The batch norm's scale of theta's first layer, spread over the array, at an entry. -/
theorem theta1_scale (b : Fin 8) (h w : Fin 128) (j : Fin 128) :
    val_main_v39 (F := Ideal) x7 (ix4 b h w j) = x7 (ix1 j) := by
  refine (val_main_v39_apply _ _).trans ?_
  refine (val_main_v38_apply _ _).trans ?_
  exact congrArg x7 (funext fun a => by match a with | ⟨0, _⟩ => rfl)

/-- The batch norm's shift of theta's first layer, spread over the array, at an entry. -/
theorem theta1_shift (b : Fin 8) (h w : Fin 128) (j : Fin 128) :
    val_main_v48 (F := Ideal) x8 (ix4 b h w j) = x8 (ix1 j) := by
  refine (val_main_v48_apply _ _).trans ?_
  refine (val_main_v47_apply _ _).trans ?_
  exact congrArg x8 (funext fun a => by match a with | ⟨0, _⟩ => rfl)

/-- The reciprocal square root of variance plus epsilon of theta's first layer, spread over the array, at an entry. -/
theorem theta1_rstd (b : Fin 8) (h w : Fin 128) (j : Fin 128) :
    val_main_v45 (F := Ideal) x10 (ix4 b h w j) = Ideal.rsqrt (x10 (ix1 j) + eps) := by
  refine (val_main_v45_apply _ _).trans ?_
  refine (val_main_v44_apply _ _).trans ?_
  have e : idx_main_v44 (idx_main_v45 (ix4 b h w j)) = ix1 j := (funext fun a => by match a with | ⟨0, _⟩ => rfl)
  rw [e]
  show Ideal.rsqrt (x10 (ix1 j) + val_main_v41 (F := Ideal) (ix1 j)) = _
  rw [val_main_v41_apply]
  rfl

/-- The zero array the ReLU of theta's first layer compares with, at an entry. -/
theorem theta1_zero (b : Fin 8) (h w : Fin 128) (j : Fin 128) :
    val_main_call2_v0 (F := Ideal) (ix4 b h w j) = zero := by
  refine (val_main_call2_v0_apply _).trans ?_
  rfl

/-- Theta's first layer at an entry: convolution, batch norm, ReLU. -/
theorem theta1_layer (b : Fin 8) (h w : Fin 128) (j : Fin 128) :
    val_main_v50 (F := Ideal) x0 x1 x7 x8 x9 x10 (ix4 b h w j) = layer (mat (a := 256) (b := 128) x1) (vec (a := 128) x7) (vec (a := 128) x8) (vec (a := 128) x9) (vec (a := 128) x10) (fun c => x0 (ix4 b h w c)) j := by
  show max (val_main_v39 (F := Ideal) x7 (ix4 b h w j) * (val_main_v34 (F := Ideal) x0 x1 (ix4 b h w j) - val_main_v36 (F := Ideal) x9 (ix4 b h w j))
      * val_main_v45 (F := Ideal) x10 (ix4 b h w j) + val_main_v48 (F := Ideal) x8 (ix4 b h w j)) (val_main_call2_v0 (F := Ideal) (ix4 b h w j)) = _
  rw [theta1_scale, theta1_conv, theta1_mean, theta1_rstd, theta1_shift, theta1_zero]
  rfl

/-! ## Theta's second layer -/

/-- The batch norm's mean of theta's second layer, spread over the array, at an entry. -/
theorem theta2_mean (b : Fin 8) (h w : Fin 128) (j : Fin 128) :
    val_main_v53 (F := Ideal) x13 (ix4 b h w j) = x13 (ix1 j) := by
  refine (val_main_v53_apply _ _).trans ?_
  refine (val_main_v52_apply _ _).trans ?_
  exact congrArg x13 (funext fun a => by match a with | ⟨0, _⟩ => rfl)

/-- The batch norm's scale of theta's second layer, spread over the array, at an entry. -/
theorem theta2_scale (b : Fin 8) (h w : Fin 128) (j : Fin 128) :
    val_main_v56 (F := Ideal) x11 (ix4 b h w j) = x11 (ix1 j) := by
  refine (val_main_v56_apply _ _).trans ?_
  refine (val_main_v55_apply _ _).trans ?_
  exact congrArg x11 (funext fun a => by match a with | ⟨0, _⟩ => rfl)

/-- The batch norm's shift of theta's second layer, spread over the array, at an entry. -/
theorem theta2_shift (b : Fin 8) (h w : Fin 128) (j : Fin 128) :
    val_main_v65 (F := Ideal) x12 (ix4 b h w j) = x12 (ix1 j) := by
  refine (val_main_v65_apply _ _).trans ?_
  refine (val_main_v64_apply _ _).trans ?_
  exact congrArg x12 (funext fun a => by match a with | ⟨0, _⟩ => rfl)

/-- The reciprocal square root of variance plus epsilon of theta's second layer, spread over the array, at an entry. -/
theorem theta2_rstd (b : Fin 8) (h w : Fin 128) (j : Fin 128) :
    val_main_v62 (F := Ideal) x14 (ix4 b h w j) = Ideal.rsqrt (x14 (ix1 j) + eps) := by
  refine (val_main_v62_apply _ _).trans ?_
  refine (val_main_v61_apply _ _).trans ?_
  have e : idx_main_v61 (idx_main_v62 (ix4 b h w j)) = ix1 j := (funext fun a => by match a with | ⟨0, _⟩ => rfl)
  rw [e]
  show Ideal.rsqrt (x14 (ix1 j) + val_main_v58 (F := Ideal) (ix1 j)) = _
  rw [val_main_v58_apply]
  rfl

/-- The zero array the ReLU of theta's second layer compares with, at an entry. -/
theorem theta2_zero (b : Fin 8) (h w : Fin 128) (j : Fin 128) :
    val_main_call3_v0 (F := Ideal) (ix4 b h w j) = zero := by
  refine (val_main_call3_v0_apply _).trans ?_
  rfl

/-- The 1×1 convolution of theta's second layer at an entry: the sum over the 128 features the first layer gives the pixel. -/
theorem theta2_conv (b : Fin 8) (h w : Fin 128) (j : Fin 128) :
    val_main_v51 (F := Ideal) x0 x1 x2 x7 x8 x9 x10 (ix4 b h w j) = conv (layer (mat (a := 256) (b := 128) x1) (vec (a := 128) x7) (vec (a := 128) x8) (vec (a := 128) x9) (vec (a := 128) x10) (fun c => x0 (ix4 b h w c))) (mat (a := 128) (b := 128) x2) j := by
  refine (val_main_v51_apply _ _ _ _ _ _ _ _).trans ?_
  show (∑ k : Fin 128, _) = ∑ c : Fin 128, (layer (mat (a := 256) (b := 128) x1) (vec (a := 128) x7) (vec (a := 128) x8) (vec (a := 128) x9) (vec (a := 128) x10) (fun c => x0 (ix4 b h w c))) c * x2 (ix2 c j)
  refine Finset.sum_congr rfl fun k _ => ?_
  have el : lidx_main_v51 (ix4 b h w j) k = ix4 b h w k := (funext fun a => by match a with | ⟨0, _⟩ => rfl | ⟨1, _⟩ => rfl | ⟨2, _⟩ => rfl | ⟨3, _⟩ => rfl)
  have er : ridx_main_v51 (ix4 b h w j) k = ix2 k j := (funext fun a => by match a with | ⟨0, _⟩ => rfl | ⟨1, _⟩ => rfl)
  rw [el, er, theta1_layer]

/-- Theta's second layer at an entry: convolution, batch norm, ReLU. -/
theorem theta2_layer (b : Fin 8) (h w : Fin 128) (j : Fin 128) :
    val_main_v67 (F := Ideal) x0 x1 x2 x7 x8 x9 x10 x11 x12 x13 x14 (ix4 b h w j) = layer (mat (a := 128) (b := 128) x2) (vec (a := 128) x11) (vec (a := 128) x12) (vec (a := 128) x13) (vec (a := 128) x14) (layer (mat (a := 256) (b := 128) x1) (vec (a := 128) x7) (vec (a := 128) x8) (vec (a := 128) x9) (vec (a := 128) x10) (fun c => x0 (ix4 b h w c))) j := by
  show max (val_main_v56 (F := Ideal) x11 (ix4 b h w j) * (val_main_v51 (F := Ideal) x0 x1 x2 x7 x8 x9 x10 (ix4 b h w j) - val_main_v53 (F := Ideal) x13 (ix4 b h w j))
      * val_main_v62 (F := Ideal) x14 (ix4 b h w j) + val_main_v65 (F := Ideal) x12 (ix4 b h w j)) (val_main_call3_v0 (F := Ideal) (ix4 b h w j)) = _
  rw [theta2_scale, theta2_conv, theta2_mean, theta2_rstd, theta2_shift, theta2_zero]
  rfl

/-! ## The three feature maps -/

theorem theta_ref (b : Fin 8) (h w : Fin 128) (j : Fin 128) :
    val_main_v67 (F := Ideal) x0 x1 x2 x7 x8 x9 x10 x11 x12 x13 x14 (ix4 b h w j) = theta (params x1 x2 x3 x4 x5 x6 x7 x8 x9 x10 x11 x12 x13 x14 x15 x16 x17 x18 x19 x20 x21 x22) (fun c => x0 (ix4 b h w c)) j :=
  theta2_layer x0 x1 x2 x7 x8 x9 x10 x11 x12 x13 x14 b h w j

theorem phi_ref (b : Fin 8) (h w : Fin 128) (j : Fin 128) :
    val_main_v33 (F := Ideal) x0 x3 x4 x15 x16 x17 x18 x19 x20 x21 x22 (ix4 b h w j) = phi (params x1 x2 x3 x4 x5 x6 x7 x8 x9 x10 x11 x12 x13 x14 x15 x16 x17 x18 x19 x20 x21 x22) (fun c => x0 (ix4 b h w c)) j :=
  phi2_layer x0 x3 x4 x15 x16 x17 x18 x19 x20 x21 x22 b h w j

theorem gamma_ref (b : Fin 8) (h w : Fin 128) (j : Fin 128) :
    val_main_v68 (F := Ideal) x0 x5 (ix4 b h w j) = gamma (params x1 x2 x3 x4 x5 x6 x7 x8 x9 x10 x11 x12 x13 x14 x15 x16 x17 x18 x19 x20 x21 x22) (fun c => x0 (ix4 b h w c)) j := by
  refine (val_main_v68_apply _ _ _).trans ?_
  show (∑ k : Fin 256, _) = ∑ c : Fin 256, x0 (ix4 b h w c) * x5 (ix2 c j)
  refine Finset.sum_congr rfl fun k _ => ?_
  have el : lidx_main_v68 (ix4 b h w j) k = ix4 b h w k := (funext fun a => by match a with | ⟨0, _⟩ => rfl | ⟨1, _⟩ => rfl | ⟨2, _⟩ => rfl | ⟨3, _⟩ => rfl)
  have er : ridx_main_v68 (ix4 b h w j) k = ix2 k j := (funext fun a => by match a with | ⟨0, _⟩ => rfl | ⟨1, _⟩ => rfl)
  rw [el, er]

end Cert.ReferenceIdeal.Features

end
-- ==== Proof.RefCore.lean ====
/-
  The reference program's attention core and closing convolution, read at one entry.

  From the three feature maps of an image row (theta, phi and gamma: 128 pixels with 128 features each, left as they
  are), the reference forms, for every pair of pixels `w`, `v` of the row, the inner product of theta at `w` with phi at
  `v` and multiplies it by the scale; takes the maximum of the scores of `w` over `v`, started at minus infinity and capped
  below by minus infinity once more; subtracts it, exponentiates, and divides by the sum of the exponentials over `v`
  (started at zero, which the sum absorbs); sums the gamma features over `v` with these weights; and sends the 128
  attended features through the last 128×256 matrix. Read at the entry `(b, h, w, f)`, this is the closing 1×1 convolution
  of the attention core of row `(b, h)` at pixel `w`, output channel `f`.

  The maximum along the last axis of a rank-4 array is read as a fold of `max` over that axis's coordinates; every other
  stage reads one element of each operand, or a sum over one axis of them, at indices given by their coordinates.
-/
import proofs.«149783_j43911745634356_1_alg».proof.Proof.Gen.ReferenceIdeal.Read
import proofs.«149783_j43911745634356_1_alg».proof.Proof.Spec
import Idealize.ShloMosaic.Lib.ValueLayout
import Idealize.ShloMosaic.Lib.Pipeline.Value
import Idealize.ShloMosaic.PureOps.Ideal.Laws

noncomputable section

namespace Cert.ReferenceIdeal.Core

open Cert.ReferenceIdeal Cert.ReferenceIdeal.Gen Cert.ReferenceIdeal.Read Cert.Attn Idealize.ShloMosaic Idealize.ShloMosaic.ValueIdx

/-! ## A maximum along the last axis of a rank-4 array -/

/-- The host's reduction with a maximum body along the LAST axis of an `[a, b, c, n]` array: at `(p, q, r)`, the
    maximum of that fibre from the initial value. -/
theorem hostReduce_max_last4_apply {a b c n : ℕ} {u : Shape} (x : FVec Ideal ⟨4, ![a, b, c, n]⟩ .f32)
    (init : u.Idx → Ideal .f32)
    (h' : (⟨4, ![a, b, c, n]⟩ : Shape).ReducesTo [3] ⟨3, ![a, b, c]⟩)
    (h : (⟨4, ![a, b, c, n]⟩ : Shape).Reduces [3] ⟨3, ![a, b, c]⟩)
    (hu : 0 < u.numel) (p : Fin a) (q : Fin b) (r : Fin c) :
    Host.reduce FloatOps.maximumf x init h' hu (ix3 p q r)
      = (Finset.univ : Finset (Fin n)).fold max (init (Shape.Idx.first hu)) fun k => x (ix4 p q r k) :=
  (Host.reduce_eq_fold_single FloatOps.maximumf x init h' h hu (ix3 p q r)).trans
    (Finset.fold_congr fun k _ => congrArg x (funext fun ax => Fin.ext (by
      match ax with
      | ⟨0, _⟩ => rfl
      | ⟨1, _⟩ => rfl
      | ⟨2, _⟩ => rfl
      | ⟨3, _⟩ => rfl)))

/-! ## The composed index maps at explicit coordinates -/

/-- The score product reads its left operand at pixel `w`, feature `k`. -/
theorem lidx69 (b : Fin 8) (h w v k : Fin 128) : lidx_main_v69 (ix4 b h w v) k = ix4 b h w k :=
  funext fun a => Fin.ext (by match a with | ⟨0, _⟩ => rfl | ⟨1, _⟩ => rfl | ⟨2, _⟩ => rfl | ⟨3, _⟩ => rfl)
/-- The score product reads its right operand at pixel `v`, feature `k`. -/
theorem ridx69 (b : Fin 8) (h w v k : Fin 128) : ridx_main_v69 (ix4 b h w v) k = ix4 b h v k :=
  funext fun a => Fin.ext (by match a with | ⟨0, _⟩ => rfl | ⟨1, _⟩ => rfl | ⟨2, _⟩ => rfl | ⟨3, _⟩ => rfl)
/-- The row maximum, kept as a size-one last axis and broadcast back along it, is read at `(b, h, w)`. -/
theorem idx7576 (b : Fin 8) (h w v : Fin 128) : idx_main_v75 (idx_main_v76 (ix4 b h w v)) = ix3 b h w :=
  funext fun a => Fin.ext (by match a with | ⟨0, _⟩ => rfl | ⟨1, _⟩ => rfl | ⟨2, _⟩ => rfl)
/-- The row sum, kept as a size-one last axis and broadcast back along it, is read at `(b, h, w)`. -/
theorem idx8081 (b : Fin 8) (h w v : Fin 128) : idx_main_v80 (idx_main_v81 (ix4 b h w v)) = ix3 b h w :=
  funext fun a => Fin.ext (by match a with | ⟨0, _⟩ => rfl | ⟨1, _⟩ => rfl | ⟨2, _⟩ => rfl)
/-- The row sum reads its operand along the last axis. -/
theorem idx79 (b : Fin 8) (h w k : Fin 128) : idx_main_v79 (ix3 b h w) k = ix4 b h w k :=
  funext fun a => Fin.ext (by match a with | ⟨0, _⟩ => rfl | ⟨1, _⟩ => rfl | ⟨2, _⟩ => rfl | ⟨3, _⟩ => rfl)
/-- The weighted sum reads the weights at pixel `w` against pixel `k`. -/
theorem lidx83 (b : Fin 8) (h w c k : Fin 128) : lidx_main_v83 (ix4 b h w c) k = ix4 b h w k :=
  funext fun a => Fin.ext (by match a with | ⟨0, _⟩ => rfl | ⟨1, _⟩ => rfl | ⟨2, _⟩ => rfl | ⟨3, _⟩ => rfl)
/-- The weighted sum reads the gamma features at pixel `k`, feature `c`. -/
theorem ridx83 (b : Fin 8) (h w c k : Fin 128) : ridx_main_v83 (ix4 b h w c) k = ix4 b h k c :=
  funext fun a => Fin.ext (by match a with | ⟨0, _⟩ => rfl | ⟨1, _⟩ => rfl | ⟨2, _⟩ => rfl | ⟨3, _⟩ => rfl)
/-- The closing convolution reads the attended vector at feature `k`. -/
theorem lidx84 (b : Fin 8) (h w : Fin 128) (f : Fin 256) (k : Fin 128) : lidx_main_v84 (ix4 b h w f) k = ix4 b h w k :=
  funext fun a => Fin.ext (by match a with | ⟨0, _⟩ => rfl | ⟨1, _⟩ => rfl | ⟨2, _⟩ => rfl | ⟨3, _⟩ => rfl)
/-- The closing convolution reads its weight matrix at `(k, f)`. -/
theorem ridx84 (b : Fin 8) (h w : Fin 128) (f : Fin 256) (k : Fin 128) : ridx_main_v84 (ix4 b h w f) k = ix2 k f :=
  funext fun a => Fin.ext (by match a with | ⟨0, _⟩ => rfl | ⟨1, _⟩ => rfl)

/-! ## The stages at an entry -/

variable (x0 : (⟨S8x128x128x256, .f32⟩ : BufTy).Contents (Elt Ideal)) (x1 : (⟨S256x128, .f32⟩ : BufTy).Contents (Elt Ideal)) (x2 : (⟨S128x128, .f32⟩ : BufTy).Contents (Elt Ideal)) (x3 : (⟨S256x128, .f32⟩ : BufTy).Contents (Elt Ideal)) (x4 : (⟨S128x128, .f32⟩ : BufTy).Contents (Elt Ideal)) (x5 : (⟨S256x128, .f32⟩ : BufTy).Contents (Elt Ideal)) (x6 : (⟨S128x256, .f32⟩ : BufTy).Contents (Elt Ideal)) (x7 x8 x9 x10 x11 x12 x13 x14 x15 x16 x17 x18 x19 x20 x21 x22 : (⟨S128, .f32⟩ : BufTy).Contents (Elt Ideal))

/-- The scaled score of pixel `w` against pixel `v` is the scale times the inner product of theta at `w` with phi at `v`. -/
theorem score_ref (b : Fin 8) (h w v : Fin 128) :
    val_main_v71 (F := Ideal) x0 x1 x2 x3 x4 x7 x8 x9 x10 x11 x12 x13 x14 x15 x16 x17 x18 x19 x20 x21 x22 (ix4 b h w v)
      = score (fun c => val_main_v67 (F := Ideal) x0 x1 x2 x7 x8 x9 x10 x11 x12 x13 x14 (ix4 b h w c))
              (fun c => val_main_v33 (F := Ideal) x0 x3 x4 x15 x16 x17 x18 x19 x20 x21 x22 (ix4 b h v c)) := by
  rw [val_main_v71_apply, val_main_v70_apply, val_main_cst_3_apply, val_main_v69_apply]
  generalize val_main_v67 (F := Ideal) x0 x1 x2 x7 x8 x9 x10 x11 x12 x13 x14 = th
  generalize val_main_v33 (F := Ideal) x0 x3 x4 x15 x16 x17 x18 x19 x20 x21 x22 = ph
  simp only [Ideal.mulf_def, Ideal.ofBits_def, lidx69, ridx69, score]

/-- The row maximum at pixel `w`: the running maximum of its scores from minus infinity, capped below by minus infinity once more. -/
theorem rowmax_ref (b : Fin 8) (h w : Fin 128) :
    val_main_v74 (F := Ideal) x0 x1 x2 x3 x4 x7 x8 x9 x10 x11 x12 x13 x14 x15 x16 x17 x18 x19 x20 x21 x22 (ix3 b h w)
      = rowmax (fun v => val_main_v71 (F := Ideal) x0 x1 x2 x3 x4 x7 x8 x9 x10 x11 x12 x13 x14 x15 x16 x17 x18 x19 x20 x21 x22 (ix4 b h w v)) := by
  rw [val_main_v74_apply, val_main_v73_apply, val_main_cst_5_apply]
  unfold val_main_v72
  generalize val_main_v71 (F := Ideal) x0 x1 x2 x3 x4 x7 x8 x9 x10 x11 x12 x13 x14 x15 x16 x17 x18 x19 x20 x21 x22 = s
  rw [hostReduce_max_last4_apply s _ reducesTo_S8x128x128x128_S8x128x128_d3 (by decide) h_S_ b h w, val_main_cst_4_apply]
  simp only [Ideal.maximumf_def, Ideal.ofBits_def, rowmax]

/-- The exponential of a score less its row maximum. -/
theorem exp_ref (b : Fin 8) (h w v : Fin 128) :
    val_main_v78 (F := Ideal) x0 x1 x2 x3 x4 x7 x8 x9 x10 x11 x12 x13 x14 x15 x16 x17 x18 x19 x20 x21 x22 (ix4 b h w v)
      = Ideal.exp (val_main_v71 (F := Ideal) x0 x1 x2 x3 x4 x7 x8 x9 x10 x11 x12 x13 x14 x15 x16 x17 x18 x19 x20 x21 x22 (ix4 b h w v) - rowmax (fun u => val_main_v71 (F := Ideal) x0 x1 x2 x3 x4 x7 x8 x9 x10 x11 x12 x13 x14 x15 x16 x17 x18 x19 x20 x21 x22 (ix4 b h w u))) := by
  rw [val_main_v78_apply, val_main_v77_apply, val_main_v76_apply, val_main_v75_apply, idx7576, rowmax_ref]
  simp only [Ideal.hostUnary_exp_def, Ideal.subf_def]

/-- The softmax denominator at pixel `w`: the sum of the exponentials along the row, started at zero. -/
theorem den_ref (b : Fin 8) (h w : Fin 128) :
    val_main_v79 (F := Ideal) x0 x1 x2 x3 x4 x7 x8 x9 x10 x11 x12 x13 x14 x15 x16 x17 x18 x19 x20 x21 x22 (ix3 b h w)
      = ∑ u : Fin 128, val_main_v78 (F := Ideal) x0 x1 x2 x3 x4 x7 x8 x9 x10 x11 x12 x13 x14 x15 x16 x17 x18 x19 x20 x21 x22 (ix4 b h w u) := by
  rw [val_main_v79_apply, val_main_cst_6_apply]
  generalize val_main_v78 (F := Ideal) x0 x1 x2 x3 x4 x7 x8 x9 x10 x11 x12 x13 x14 x15 x16 x17 x18 x19 x20 x21 x22 = e
  simp only [Ideal.ofBits_def, Ideal.ofBits_zero_f32, zero_add, idx79]

/-- The softmax weight of pixel `v` for pixel `w`. -/
theorem softmax_ref (b : Fin 8) (h w v : Fin 128) :
    val_main_v82 (F := Ideal) x0 x1 x2 x3 x4 x7 x8 x9 x10 x11 x12 x13 x14 x15 x16 x17 x18 x19 x20 x21 x22 (ix4 b h w v)
      = softmax (fun u => val_main_v71 (F := Ideal) x0 x1 x2 x3 x4 x7 x8 x9 x10 x11 x12 x13 x14 x15 x16 x17 x18 x19 x20 x21 x22 (ix4 b h w u)) v := by
  rw [val_main_v82_apply, val_main_v81_apply, val_main_v80_apply, idx8081, den_ref, Ideal.hostDivf_def]
  simp only [exp_ref]
  generalize val_main_v71 (F := Ideal) x0 x1 x2 x3 x4 x7 x8 x9 x10 x11 x12 x13 x14 x15 x16 x17 x18 x19 x20 x21 x22 = s
  simp only [softmax]

/-- The attended feature `c` of pixel `w`: the softmax-weighted sum of the gamma features. -/
theorem attend_ref (b : Fin 8) (h w c : Fin 128) :
    val_main_v83 (F := Ideal) x0 x1 x2 x3 x4 x5 x7 x8 x9 x10 x11 x12 x13 x14 x15 x16 x17 x18 x19 x20 x21 x22 (ix4 b h w c)
      = attend (fun v => val_main_v82 (F := Ideal) x0 x1 x2 x3 x4 x7 x8 x9 x10 x11 x12 x13 x14 x15 x16 x17 x18 x19 x20 x21 x22 (ix4 b h w v))
               (fun v j => val_main_v68 (F := Ideal) x0 x5 (ix4 b h v j)) c := by
  rw [val_main_v83_apply]
  generalize val_main_v82 (F := Ideal) x0 x1 x2 x3 x4 x7 x8 x9 x10 x11 x12 x13 x14 x15 x16 x17 x18 x19 x20 x21 x22 = p
  generalize val_main_v68 (F := Ideal) x0 x5 = ga
  simp only [lidx83, ridx83, attend]

/-- The reference's output at `(b, h, w, f)`: the closing convolution of the attention core of row `(b, h)` at pixel `w`. -/
theorem out_ref (b : Fin 8) (h w : Fin 128) (f : Fin 256) :
    val_main_v84 (F := Ideal) x0 x1 x2 x3 x4 x5 x6 x7 x8 x9 x10 x11 x12 x13 x14 x15 x16 x17 x18 x19 x20 x21 x22 (ix4 b h w f)
      = conv (core (fun w' j => val_main_v67 (F := Ideal) x0 x1 x2 x7 x8 x9 x10 x11 x12 x13 x14 (ix4 b h w' j))
                   (fun v j => val_main_v33 (F := Ideal) x0 x3 x4 x15 x16 x17 x18 x19 x20 x21 x22 (ix4 b h v j))
                   (fun v j => val_main_v68 (F := Ideal) x0 x5 (ix4 b h v j)) w) (mat x6) f := by
  rw [val_main_v84_apply]
  simp only [lidx84, ridx84, attend_ref, softmax_ref, score_ref]
  generalize val_main_v67 (F := Ideal) x0 x1 x2 x7 x8 x9 x10 x11 x12 x13 x14 = th
  generalize val_main_v33 (F := Ideal) x0 x3 x4 x15 x16 x17 x18 x19 x20 x21 x22 = ph
  generalize val_main_v68 (F := Ideal) x0 x5 = ga
  simp only [conv, core, mat]

end Cert.ReferenceIdeal.Core

end
-- ==== Proof.RefValue.lean ====
/-
  The reference's result array, entry by entry, is the row function of the input.

  The reference computes theta, phi and gamma for every pixel of every image row at once, takes the batched score
  product over the pixels of one image row, the softmax along the last axis, the batched weighted sum of the gamma
  features and the closing 1×1 convolution. None of these mixes two image rows, so entry `(b, h, w, f)` of the result is
  the row function `slabOut` of image row `h` of image `b` at pixel `w` and channel `f`: the attention core read over the
  three feature maps, and each feature map read as the two-layer network of its pixel.
-/
import proofs.«149783_j43911745634356_1_alg».proof.Proof.RefFeatures
import proofs.«149783_j43911745634356_1_alg».proof.Proof.RefCore

noncomputable section

namespace Cert.ReferenceIdeal.RefValue

open Cert.ReferenceIdeal Cert.ReferenceIdeal.Gen Cert.ReferenceIdeal.Read Cert.Attn Idealize.ShloMosaic Idealize.ShloMosaic.ValueIdx

variable (x0 : (⟨S8x128x128x256, .f32⟩ : BufTy).Contents (Elt Ideal)) (x1 : (⟨S256x128, .f32⟩ : BufTy).Contents (Elt Ideal)) (x2 : (⟨S128x128, .f32⟩ : BufTy).Contents (Elt Ideal)) (x3 : (⟨S256x128, .f32⟩ : BufTy).Contents (Elt Ideal)) (x4 : (⟨S128x128, .f32⟩ : BufTy).Contents (Elt Ideal)) (x5 : (⟨S256x128, .f32⟩ : BufTy).Contents (Elt Ideal)) (x6 : (⟨S128x256, .f32⟩ : BufTy).Contents (Elt Ideal)) (x7 x8 x9 x10 x11 x12 x13 x14 x15 x16 x17 x18 x19 x20 x21 x22 : (⟨S128, .f32⟩ : BufTy).Contents (Elt Ideal))

/-- Entry `(b, h, w, f)` of the reference's result. -/
theorem ref_apply (b : Fin 8) (h w : Fin 128) (f : Fin 256) :
    val_main_v84 (F := Ideal) x0 x1 x2 x3 x4 x5 x6 x7 x8 x9 x10 x11 x12 x13 x14 x15 x16 x17 x18 x19 x20 x21 x22 (ix4 b h w f)
      = slabOut (params x1 x2 x3 x4 x5 x6 x7 x8 x9 x10 x11 x12 x13 x14 x15 x16 x17 x18 x19 x20 x21 x22) (fun w' c => x0 (ix4 b h w' c)) w f := by
  rw [Cert.ReferenceIdeal.Core.out_ref]
  have hT : (fun (w' : Fin 128) (j : Fin 128) => val_main_v67 (F := Ideal) x0 x1 x2 x7 x8 x9 x10 x11 x12 x13 x14 (ix4 b h w' j))
      = fun w' => theta (params x1 x2 x3 x4 x5 x6 x7 x8 x9 x10 x11 x12 x13 x14 x15 x16 x17 x18 x19 x20 x21 x22) (fun c => x0 (ix4 b h w' c)) :=
    funext fun w' => funext fun j => Cert.ReferenceIdeal.Features.theta_ref x0 x1 x2 x3 x4 x5 x6 x7 x8 x9 x10 x11 x12 x13 x14 x15 x16 x17 x18 x19 x20 x21 x22 b h w' j
  have hP : (fun (v : Fin 128) (j : Fin 128) => val_main_v33 (F := Ideal) x0 x3 x4 x15 x16 x17 x18 x19 x20 x21 x22 (ix4 b h v j))
      = fun v => phi (params x1 x2 x3 x4 x5 x6 x7 x8 x9 x10 x11 x12 x13 x14 x15 x16 x17 x18 x19 x20 x21 x22) (fun c => x0 (ix4 b h v c)) :=
    funext fun v => funext fun j => Cert.ReferenceIdeal.Features.phi_ref x0 x1 x2 x3 x4 x5 x6 x7 x8 x9 x10 x11 x12 x13 x14 x15 x16 x17 x18 x19 x20 x21 x22 b h v j
  have hG : (fun (v : Fin 128) (j : Fin 128) => val_main_v68 (F := Ideal) x0 x5 (ix4 b h v j))
      = fun v => gamma (params x1 x2 x3 x4 x5 x6 x7 x8 x9 x10 x11 x12 x13 x14 x15 x16 x17 x18 x19 x20 x21 x22) (fun c => x0 (ix4 b h v c)) :=
    funext fun v => funext fun j => Cert.ReferenceIdeal.Features.gamma_ref x0 x1 x2 x3 x4 x5 x6 x7 x8 x9 x10 x11 x12 x13 x14 x15 x16 x17 x18 x19 x20 x21 x22 b h v j
  rw [hT, hP, hG]
  rfl

end Cert.ReferenceIdeal.RefValue

end
-- ==== Proof.lean ====
/-
  Self-attention along the width axis, fused in one kernel over (image, group of 16 image rows) blocks, against the
  plain array program: both compute, at the extended reals, the same function of the arguments.

  For every image row the two programs send each of its 128 pixels through the theta and phi two-layer networks
  (1×1 convolution, inference batch norm, ReLU, twice) and the gamma convolution, take the scaled inner products of
  theta at pixel `w` with phi at pixel `v`, a softmax over `v`, the weighted sum of the gamma features and a last 1×1
  convolution. The kernel does this on blocks of 16 image rows flattened to 2048 pixel rows, with matrix products into
  zero accumulators and lane reductions; the reference does it on the whole [8,128,128,·] arrays with dot_generals and
  host reductions. Operation by operation the two are the same exact function on the extended reals (a change of float
  format is the identity there, a matrix product a finite sum, a lane reduction the same sum or maximum as the
  host's), and only the order and tiling of finite sums differ, which addition's commutativity and associativity
  absorb: no law needing finite values is used, so the precondition is never opened. Proof/Spec.lean states the row
  function; Proof/KLayers.lean, KCore.lean and KPayload.lean read the kernel body at a block entry; Proof/Blocks.lean
  tiles the blocks into the result array; Proof/RefFeatures.lean, RefCore.lean and RefValue.lean read the reference's
  result at an entry. The three frames are the generated ones (the reference's is its generated run with the value
  dropped), and the idealization ledger is empty.
-/
import proofs.«149783_j43911745634356_1_alg».proof.Defs
import proofs.«149783_j43911745634356_1_alg».proof.Proof.Gen.Kernel
import proofs.«149783_j43911745634356_1_alg».proof.Proof.Gen.Kernel.Skeleton
import proofs.«149783_j43911745634356_1_alg».proof.Proof.Gen.Kernel.Launch
import proofs.«149783_j43911745634356_1_alg».proof.Proof.Gen.Kernel.Points
import proofs.«149783_j43911745634356_1_alg».proof.Proof.Gen.Kernel.Frame
import proofs.«149783_j43911745634356_1_alg».proof.Proof.Gen.KernelIdeal
import proofs.«149783_j43911745634356_1_alg».proof.Proof.Gen.KernelIdeal.Skeleton
import proofs.«149783_j43911745634356_1_alg».proof.Proof.Gen.KernelIdeal.Launch
import proofs.«149783_j43911745634356_1_alg».proof.Proof.Gen.KernelIdeal.Points
import proofs.«149783_j43911745634356_1_alg».proof.Proof.Gen.KernelIdeal.Frame
import proofs.«149783_j43911745634356_1_alg».proof.Proof.Gen.ReferenceIdeal
import proofs.«149783_j43911745634356_1_alg».proof.Proof.Gen.Pre_finite_inputs
import proofs.«149783_j43911745634356_1_alg».proof.Proof.Gen.KernelIdeal.Value
import proofs.«149783_j43911745634356_1_alg».proof.Proof.Gen.ReferenceIdeal.Run
import proofs.«149783_j43911745634356_1_alg».proof.Proof.Gen.ReferenceIdeal.Read
import proofs.«149783_j43911745634356_1_alg».proof.Proof.Blocks
import proofs.«149783_j43911745634356_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run with the value dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both programs end with the same result array: entry `(b, h, w, f)` of
    either is the row function of image row `h` of image `b` at pixel `w` and channel `f`. -/
theorem algebraic : Cert.algebraic_KernelIdeal_ReferenceIdeal := by
  intro m ρ m' ρ' _ hagree
  refine ⟨fun c => Cert.KernelIdeal.Blocks.Garr m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq]
  obtain ⟨h0, h1, h2, h3, h4, h5, h6, h7, h8, h9, h10, h11, h12, h13, h14, h15, h16, h17, h18, h19, h20, h21, h22⟩ := hagree c
  rw [h0, h1, h2, h3, h4, h5, h6, h7, h8, h9, h10, h11, h12, h13, h14, h15, h16, h17, h18, h19, h20, h21, h22]
  funext i
  obtain ⟨b, hr, w, f, rfl⟩ : ∃ (b : Fin 8) (hr : Fin 128) (w : Fin 128) (f : Fin 256), i = ix4 b hr w f :=
    ⟨i 0, i 1, i 2, i 3, eq_ix4 i⟩
  exact Cert.ReferenceIdeal.RefValue.ref_apply _ _ _ _ _ _ _ _ _ _ _ _ _ _ _ _ _ _ _ _ _ _ _ b hr w f

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
